-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S4096x16 : Shape := ⟨2, ![4096, 16]⟩
abbrev S16x4096 : Shape := ⟨2, ![16, 4096]⟩
abbrev S16x1024 : Shape := ⟨2, ![16, 1024]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part3 {F : FTy → Type} [FloatOps F] (main_arg11 : FVec F S4096x16 .f32) (main_arg12 : FVec F S16x1024 .f32) (main_v48 : IVec S_ 1) (main_v49 : FVec F S16x1024 .f32) (main_v50 : FVec F S16x1024 .f32) : IVec S_ 1 :=
  let main_v51 : IVec S16x1024 1 := cmpf .olt main_v49 main_v50
  let main_c_19 : IVec S_ 1 := constantI S_ 1 1#1
  let main_v52 : IVec S_ 1 := (fun x v => Host.reduce IntOp.andi x v reducesTo_S16x1024_S_d0_1 h_S_) main_v51 main_c_19
  let main_v53 : IVec S_ 1 := andi main_v48 main_v52
  let main_v54 : FVec F S4096x16 .f32 := Host.absf main_arg11
  let main_cst_20 : FVec F S_ .f32 := constant S_ .f32 0x7F800000#32
  let main_v55 : FVec F S4096x16 .f32 := broadcastInDim S4096x16 ![] bcast_S_S4096x16 main_cst_20
  let main_v56 : IVec S4096x16 1 := cmpf .olt main_v54 main_v55
  let main_c_21 : IVec S_ 1 := constantI S_ 1 1#1
  let main_v57 : IVec S_ 1 := (fun x v => Host.reduce IntOp.andi x v reducesTo_S4096x16_S_d0_1 h_S_) main_v56 main_c_21
  let main_v58 : IVec S_ 1 := andi main_v53 main_v57
  let main_v59 : FVec F S16x1024 .f32 := Host.absf main_arg12
  let main_cst_22 : FVec F S_ .f32 := constant S_ .f32 0x7F800000#32
  let main_v60 : FVec F S16x1024 .f32 := broadcastInDim S16x1024 ![] bcast_S_S16x1024 main_cst_22
  let main_v61 : IVec S16x1024 1 := cmpf .olt main_v59 main_v60
  let main_c_23 : IVec S_ 1 := constantI S_ 1 1#1
  let main_v62 : IVec S_ 1 := (fun x v => Host.reduce IntOp.andi x v reducesTo_S16x1024_S_d0_1 h_S_) main_v61 main_c_23
  let main_v63 : IVec S_ 1 := andi main_v58 main_v62
  main_v63

def fn_part2 {F : FTy → Type} [FloatOps F] (main_arg7 : FVec F S4096x16 .f32) (main_arg8 : FVec F S16x4096 .f32) (main_arg9 : FVec F S4096x16 .f32) (main_arg10 : FVec F S16x1024 .f32) (main_arg11 : FVec F S4096x16 .f32) (main_arg12 : FVec F S16x1024 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  let main_v39 : FVec F S16x4096 .f32 := Host.absf main_arg8
  let main_cst_14 : FVec F S_ .f32 := constant S_ .f32 0x7F800000#32
  let main_v40 : FVec F S16x4096 .f32 := broadcastInDim S16x4096 ![] bcast_S_S16x4096 main_cst_14
  let main_v41 : IVec S16x4096 1 := cmpf .olt main_v39 main_v40
  let main_c_15 : IVec S_ 1 := constantI S_ 1 1#1
  let main_v42 : IVec S_ 1 := (fun x v => Host.reduce IntOp.andi x v reducesTo_S16x4096_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  let main_v49 : FVec F S16x1024 .f32 := Host.absf main_arg10
  let main_cst_18 : FVec F S_ .f32 := constant S_ .f32 0x7F800000#32
  let main_v50 : FVec F S16x1024 .f32 := broadcastInDim S16x1024 ![] bcast_S_S16x1024 main_cst_18
  fn_part3 (F := F) main_arg11 main_arg12 main_v48 main_v49 main_v50

def fn_part1 {F : FTy → Type} [FloatOps F] (main_arg4 : FVec F S4096 .f32) (main_arg5 : FVec F S1024 .f32) (main_arg6 : FVec F S1024 .f32) (main_arg7 : FVec F S4096x16 .f32) (main_arg8 : FVec F S16x4096 .f32) (main_arg9 : FVec F S4096x16 .f32) (main_arg10 : FVec F S16x1024 .f32) (main_arg11 : FVec F S4096x16 .f32) (main_arg12 : FVec F S16x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x2048x4096 .f32) (main_arg1 : FVec F S4096x4096 .f32) (main_arg2 : FVec F S1024x4096 .f32) (main_arg3 : FVec F S1024x4096 .f32) (main_arg4 : FVec F S4096 .f32) (main_arg5 : FVec F S1024 .f32) (main_arg6 : FVec F S1024 .f32) (main_arg7 : FVec F S4096x16 .f32) (main_arg8 : FVec F S16x4096 .f32) (main_arg9 : FVec F S4096x16 .f32) (main_arg10 : FVec F S16x1024 .f32) (main_arg11 : FVec F S4096x16 .f32) (main_arg12 : FVec F S16x1024 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_arg10 main_arg11 main_arg12 main_v13 main_v16
-- ==== Kernel.lean ====
abbrev S4x2048x4096 : Shape := ⟨3, ![4, 2048, 4096]⟩
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S4096x16 : Shape := ⟨2, ![4096, 16]⟩
abbrev S16x4096 : Shape := ⟨2, ![16, 4096]⟩
abbrev S16x1024 : Shape := ⟨2, ![16, 1024]⟩
abbrev S4096x1024 : Shape := ⟨2, ![4096, 1024]⟩
abbrev S4096x6144 : Shape := ⟨2, ![4096, 6144]⟩
abbrev S4096x48 : Shape := ⟨2, ![4096, 48]⟩
abbrev S_ : Shape := ⟨0, ![]⟩
abbrev S16x6144 : Shape := ⟨2, ![16, 6144]⟩
abbrev S48x6144 : Shape := ⟨2, ![48, 6144]⟩
abbrev S6144 : Shape := ⟨1, ![6144]⟩
abbrev S1x6144 : Shape := ⟨2, ![1, 6144]⟩
abbrev S8192x4096 : Shape := ⟨2, ![8192, 4096]⟩
abbrev S8192x6144 : Shape := ⟨2, ![8192, 6144]⟩
abbrev S256x4096 : Shape := ⟨2, ![256, 4096]⟩
abbrev S4096x1536 : Shape := ⟨2, ![4096, 1536]⟩
abbrev S48x1536 : Shape := ⟨2, ![48, 1536]⟩
abbrev S1x1536 : Shape := ⟨2, ![1, 1536]⟩
abbrev S256x1536 : Shape := ⟨2, ![256, 1536]⟩
abbrev S256x48 : Shape := ⟨2, ![256, 48]⟩
abbrev S4x2048x6144 : Shape := ⟨3, ![4, 2048, 6144]⟩
abbrev S4x2048x1024 : Shape := ⟨3, ![4, 2048, 1024]⟩

abbrev nBuf : Space → Nat
  | .hbm => 39
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S4096, .f32⟩
  | .hbm, ⟨5, _⟩ => ⟨S1024, .f32⟩
  | .hbm, ⟨6, _⟩ => ⟨S1024, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S16x1024, .f32⟩
  | .hbm, ⟨11, _⟩ => ⟨S4096x16, .f32⟩
  | .hbm, ⟨12, _⟩ => ⟨S16x1024, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x6144, .f32⟩
  | .hbm, ⟨17, _⟩ => ⟨S4096x48, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x6144, .f32⟩
  | .hbm, ⟨25, _⟩ => ⟨S16x6144, .f32⟩
  | .hbm, ⟨26, _⟩ => ⟨S16x6144, .f32⟩
  | .hbm, ⟨27, _⟩ => ⟨S48x6144, .f32⟩
  | .hbm, ⟨28, _⟩ => ⟨S6144, .f32⟩
  | .hbm, ⟨29, _⟩ => ⟨S1x6144, .f32⟩
  | .hbm, ⟨30, _⟩ => ⟨S4096x6144, .bf16⟩
  | .hbm, ⟨31, _⟩ => ⟨S4096x48, .bf16⟩
  | .hbm, ⟨32, _⟩ => ⟨S48x6144, .bf16⟩
  | .hbm, ⟨33, _⟩ => ⟨S8192x4096, .f32⟩
  | .hbm, ⟨34, _⟩ => ⟨S8192x6144, .f32⟩
  | .hbm, ⟨35, _⟩ => ⟨S4x2048x6144, .f32⟩
  | .hbm, ⟨36, _⟩ => ⟨S4x2048x4096, .f32⟩
  | .hbm, ⟨37, _⟩ => ⟨S4x2048x1024, .f32⟩
  | .hbm, ⟨38, _⟩ => ⟨S4x2048x1024, .f32⟩
  | .local _ .vmem, ⟨0, _⟩ => ⟨S256x4096, .f32⟩
  | .local _ .vmem, ⟨1, _⟩ => ⟨S256x4096, .f32⟩
  | .local _ .vmem, ⟨2, _⟩ => ⟨S4096x1536, .bf16⟩
  | .local _ .vmem, ⟨3, _⟩ => ⟨S4096x48, .bf16⟩
  | .local _ .vmem, ⟨4, _⟩ => ⟨S48x1536, .bf16⟩
  | .local _ .vmem, ⟨5, _⟩ => ⟨S48x1536, .bf16⟩
  | .local _ .vmem, ⟨6, _⟩ => ⟨S1x1536, .f32⟩
  | .local _ .vmem, ⟨7, _⟩ => ⟨S1x1536, .f32⟩
  | .local _ .vmem, ⟨8, _⟩ => ⟨S256x1536, .f32⟩
  | .local _ .vmem, ⟨9, _⟩ => ⟨S256x1536, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x48 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S48x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S4096x4096_S4096x4096_1_0 : S4096x4096.Transposes [1, 0] S4096x4096
  transposes_S1024x4096_S4096x1024_1_0 : S1024x4096.Transposes [1, 0] S4096x1024
  concatenates_S4096x4096_S4096x1024_S4096x1024_S4096x6144_d1 : Shape.Concatenates [S4096x4096, S4096x1024, S4096x1024] S4096x6144 1
  concatenates_S4096x16_S4096x16_S4096x16_S4096x48_d1 : Shape.Concatenates [S4096x16, S4096x16, S4096x16] S4096x48 1
  bcast_S_S16x4096 : S_.BroadcastsInDim S16x4096 (![] : Fin 0 → Fin S16x4096.rank)
  bcast_S_S16x1024 : S_.BroadcastsInDim S16x1024 (![] : Fin 0 → Fin S16x1024.rank)
  concatenates_S16x4096_S16x1024_S16x1024_S16x6144_d1 : Shape.Concatenates [S16x4096, S16x1024, S16x1024] S16x6144 1
  concatenates_S16x6144_S16x6144_S16x6144_S48x6144_d0 : Shape.Concatenates [S16x6144, S16x6144, S16x6144] S48x6144 0
  concatenates_S4096_S1024_S1024_S6144_d0 : Shape.Concatenates [S4096, S1024, S1024] S6144 0
  bcast_S6144_S1x6144_1 : S6144.BroadcastsInDim S1x6144 (![1] : Fin 1 → Fin S1x6144.rank)
  bitsLt_bf16_f32 : FTy.bits .bf16 < FTy.bits .f32
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1536_S4096x1536_0_0 : ∀ a, (![0, 0] : Fin 2 → Nat) a + S4096x1536.size a ≤ S4096x1536.size a
  h_S4096x1536 : 0 < S4096x1536.numel
  shapeCasts_S4096x1536_S4096x1536 : S4096x1536.ShapeCasts S4096x1536
  inb_S4096x48_S4096x48_0_0 : ∀ a, (![0, 0] : Fin 2 → Nat) a + S4096x48.size a ≤ S4096x48.size a
  h_S4096x48 : 0 < S4096x48.numel
  shapeCasts_S4096x48_S4096x48 : S4096x48.ShapeCasts S4096x48
  inb_S48x1536_S48x1536_0_0 : ∀ a, (![0, 0] : Fin 2 → Nat) a + S48x1536.size a ≤ S48x1536.size a
  h_S48x1536 : 0 < S48x1536.numel
  shapeCasts_S48x1536_S48x1536 : S48x1536.ShapeCasts S48x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S256x1536 : S1x1536.Broadcasts S256x1536
  inb_S256x1536_S256x1536_0_0 : ∀ a, (![0, 0] : Fin 2 → Nat) a + S256x1536.size a ≤ S256x1536.size a
  h_S256x1536 : 0 < S256x1536.numel
  shapeCasts_S8192x6144_S4x2048x6144 : S8192x6144.ShapeCasts S4x2048x6144
  slices_S4x2048x6144_S4x2048x4096_0_0_0 : S4x2048x6144.Slices ![0, 0, 0] S4x2048x4096
  slices_S4x2048x6144_S4x2048x1024_0_0_4096 : S4x2048x6144.Slices ![0, 0, 4096] S4x2048x1024
  slices_S4x2048x6144_S4x2048x1024_0_0_5120 : S4x2048x6144.Slices ![0, 0, 5120] S4x2048x1024
  dot_S256x4096_S4096x1536_S256x1536_1_0_0_1_n_n_wf : DotDims.WF S256x4096 S4096x1536 S256x1536 [1] [0] [0] [1] [] []
  dot_S256x4096_S4096x48_S256x48_1_0_0_1_n_n_wf : DotDims.WF S256x4096 S4096x48 S256x48 [1] [0] [0] [1] [] []
  dot_S256x48_S48x1536_S256x1536_1_0_0_1_n_n_wf : DotDims.WF S256x48 S48x1536 S256x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1536.size a ≤ S4096x6144.size a
  hwx0_1 : ∀ i : grid0.Coords, EltTy.bits .bf16 = 32 ∨ (Rect.block (s := S4096x6144) S4096x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x48.size a ≤ S4096x48.size a
  hwx0_2 : ∀ i : grid0.Coords, EltTy.bits .bf16 = 32 ∨ (Rect.block (s := S4096x48) S4096x48.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S48x1536.size a ≤ S48x6144.size a
  hwx0_3 : ∀ i : grid0.Coords, EltTy.bits .bf16 = 32 ∨ (Rect.block (s := S48x6144) S48x1536.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x6144.size a
  hwx0_4 : ∀ i : grid0.Coords, EltTy.bits .f32 = 32 ∨ (Rect.block (s := S1x6144) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1536.size a ≤ S8192x6144.size a
  hwx0_5 : ∀ i : grid0.Coords, EltTy.bits .f32 = 32 ∨ (Rect.block (s := S8192x6144) S256x1536.size (cc0_transform_5 i) (hinb0_5 i)).WholeWords (EltTy.packing .f32)

variable [Facts₀]

def dot_S256x4096_S4096x1536_S256x1536_1_0_0_1_n_n : DotDims S256x4096 S4096x1536 S256x1536 where
  lhsContracting := [1]
  rhsContracting := [0]
  lhsNonContracting := [0]
  rhsNonContracting := [1]
  lhsBatch := []
  rhsBatch := []
  wf := dot_S256x4096_S4096x1536_S256x1536_1_0_0_1_n_n_wf
def dot_S256x4096_S4096x48_S256x48_1_0_0_1_n_n : DotDims S256x4096 S4096x48 S256x48 where
  lhsContracting := [1]
  rhsContracting := [0]
  lhsNonContracting := [0]
  rhsNonContracting := [1]
  lhsBatch := []
  rhsBatch := []
  wf := dot_S256x4096_S4096x48_S256x48_1_0_0_1_n_n_wf
def dot_S256x48_S48x1536_S256x1536_1_0_0_1_n_n : DotDims S256x48 S48x1536 S256x1536 where
  lhsContracting := [1]
  rhsContracting := [0]
  lhsNonContracting := [0]
  rhsNonContracting := [1]
  lhsBatch := []
  rhsBatch := []
  wf := dot_S256x48_S48x1536_S256x1536_1_0_0_1_n_n_wf

abbrev win0_0 : Pipeline.Window sig grid0 :=
  Pipeline.Window.ofSpec (Memref.whole main_v17) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S48x1536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1536.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256x1536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S1024x4096 : Shape := ⟨2, ![1024, 4096]⟩
abbrev S4096 : Shape := ⟨1, ![4096]⟩
abbrev S1024 : Shape := ⟨1, ![1024]⟩
abbrev S4096x16 : Shape := ⟨2, ![4096, 16]⟩
abbrev S16x4096 : Shape := ⟨2, ![16, 4096]⟩
abbrev S16x1024 : Shape := ⟨2, ![16, 1024]⟩
abbrev S4x2048x16 : Shape := ⟨3, ![4, 2048, 16]⟩
abbrev S_ : Shape := ⟨0, ![]⟩
abbrev S1x1x4096 : Shape := ⟨3, ![1, 1, 4096]⟩
abbrev S4x2048x1024 : Shape := ⟨3, ![4, 2048, 1024]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S4096, .f32⟩
  | .hbm, ⟨5, _⟩ => ⟨S1024, .f32⟩
  | .hbm, ⟨6, _⟩ => ⟨S1024, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S16x1024, .f32⟩
  | .hbm, ⟨11, _⟩ => ⟨S4096x16, .f32⟩
  | .hbm, ⟨12, _⟩ => ⟨S16x1024, .f32⟩
  | .hbm, ⟨13, _⟩ => ⟨S4x2048x4096, .f32⟩
  | .hbm, ⟨14, _⟩ => ⟨S4x2048x16, .f32⟩
  | .hbm, ⟨15, _⟩ => ⟨S4x2048x4096, .f32⟩
  | .hbm, ⟨16, _⟩ => ⟨S_, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S4x2048x1024, .f32⟩
  | .hbm, ⟨24, _⟩ => ⟨S4x2048x16, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x16, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x1024 : S_.BroadcastsInDim S4x2048x1024 (![] : Fin 0 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x4096_S4096x4096_S4x2048x4096_2_1_01_0_n_n_wf : DotDims.WF S4x2048x4096 S4096x4096 S4x2048x4096 [2] [1] [0, 1] [0] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []
  dot_S4x2048x4096_S1024x4096_S4x2048x1024_2_1_01_0_n_n_wf : DotDims.WF S4x2048x4096 S1024x4096 S4x2048x1024 [2] [1] [0, 1] [0] [] []
  dot_S4x2048x16_S16x1024_S4x2048x1024_2_0_01_1_n_n_wf : DotDims.WF S4x2048x16 S16x1024 S4x2048x1024 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf
def dot_S4x2048x16_S16x1024_S4x2048x1024_2_0_01_1_n_n : DotDims S4x2048x16 S16x1024 S4x2048x1024 where
  lhsContracting := [2]
  rhsContracting := [0]
  lhsNonContracting := [0, 1]
  rhsNonContracting := [1]
  lhsBatch := []
  rhsBatch := []
  wf := dot_S4x2048x16_S16x1024_S4x2048x1024_2_0_01_1_n_n_wf

class Facts : Prop extends Facts₀ where

variable [Facts]
-- ==== Proof.KData.lean ====
/-
  What the one pipeline of the fused QKV projection is run against. The region is entered after the host
  lines that build the fused operands (the three weight matrices transposed and laid side by side, the three
  LoRA down-projections side by side, the block-diagonal LoRA up-projection, the three biases in one row) and
  flatten the activations to 8192 rows. `V` names each buffer's contents at that moment; `iblk` is the block
  of a window's array that grid point `t` works on; `outBlk` is the one tile the body stores, as a function
  of the five tiles it loads; `dats` is the pipeline's proof data: inputs stay as their blocks, the output
  tile is `outBlk` of them, nothing else is touched.
-/
import proofs.«116329_j61770219651785_1_alg».proof.Proof.Gen.Kernel.Launch
import proofs.«116329_j61770219651785_1_alg».proof.Proof.Gen.Kernel.Skeleton
import proofs.«116329_j61770219651785_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-tile rectangles the body loads and stores through. -/
abbrev rX : Rect S256x4096 := Rect.unit (s := S256x4096) ![0, 0] S256x4096.size inb_S256x4096_S256x4096_0_0
abbrev rW : Rect S4096x1536 := Rect.unit (s := S4096x1536) ![0, 0] S4096x1536.size inb_S4096x1536_S4096x1536_0_0
abbrev rA : Rect S4096x48 := Rect.unit (s := S4096x48) ![0, 0] S4096x48.size inb_S4096x48_S4096x48_0_0
abbrev rB : Rect S48x1536 := Rect.unit (s := S48x1536) ![0, 0] S48x1536.size inb_S48x1536_S48x1536_0_0
abbrev rBias : Rect S1x1536 := Rect.unit (s := S1x1536) ![0, 0] S1x1536.size inb_S1x1536_S1x1536_0_0
abbrev rO : Rect S256x1536 := Rect.unit (s := S256x1536) ![0, 0] S256x1536.size inb_S256x1536_S256x1536_0_0

/-- The output tile after the body: its one store, of the payload of the five loaded tiles. -/
def outBlk (x : Vec F S256x4096 .f32) (w : Vec F S4096x1536 .bf16) (a : Vec F S4096x48 .bf16) (b : Vec F S48x1536 .bf16)
    (bias : Vec F S1x1536 .f32) : Vec F S256x1536 .f32 :=
  View.canon [⟨rO, k0_pay1 (View.ld x rX) (View.ld w rW) (View.ld a rA) (View.ld b rB) (View.ld bias rBias)⟩]

/-- The one store covers the tile. -/
theorem outCover (p0 : Vec F S256x1536 .f32) (y : S256x1536.Idx) :
    ∃ pc ∈ ([⟨rO, p0⟩] : List (View.Piece (Elt F) S256x1536 .f32)), y ∈ pc.1.set :=
  View.cover_of_tiled [⟨rO, p0⟩] S256x1536.size (by rfl) y

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

end Cert.Kernel.Hand

end
-- ==== Proof.KFrame.lean ====
/- The frame run of the fused projection's program: the host lines, the pipeline over its 128 grid points, the host
   lines after it; every weakly fair execution ends, nothing faults, the arguments are unchanged. -/
import proofs.«116329_j61770219651785_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The host lines allocate nothing. -/
private theorem hostOps0_fresh : (hostOps0 : List (HloOp τ sig (Elt F))).Forall fun op => op.fresh = ∅ := by
  simp only [List.Forall]; repeat' constructor
private theorem hostOps1_fresh : (hostOps1 : List (HloOp τ sig (Elt F))).Forall fun op => op.fresh = ∅ := by
  simp only [List.Forall]; repeat' constructor

/-- The program is the host lines before the region, the region, and the host lines after it: it reduces to the
    region continued by the later lines. -/
private theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only. -/
private theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
private theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no array. -/
private theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments: written by no host line, before the region or after it -/

private theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem W_main_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (c : Dev nD) : Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (c : Dev nD) : Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (c : Dev nD) : Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg7 (c : Dev nD) : Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (c : Dev nD) : Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg9 (c : Dev nD) : Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg10 (c : Dev nD) : Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem W_main_arg11 (c : Dev nD) : Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg12 (c : Dev nD) : Pipeline.afterTail₀ cfgs (dats m) 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## What the body finds in each input window's buffer -/

/-- Input window 0's current buffer holds its block at every point, fetched there or not: unfetched, the block
    index has not moved. -/
private theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Input window 1's current buffer holds its block at every point, fetched there or not: unfetched, the block
    index has not moved. -/
private theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Input window 2's current buffer holds its block at every point, fetched there or not: unfetched, the block
    index has not moved. -/
private theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Input window 3's current buffer holds its block at every point, fetched there or not: unfetched, the block
    index has not moved. -/
private theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Input window 4's current buffer holds its block at every point, fetched there or not: unfetched, the block
    index has not moved. -/
private theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the five inputs' at read contents `x0 … x4` and the output's at anything,
    runs to the continuation holding the inputs' as they were and the output's at `outBlk` of the inputs'. -/
private theorem sound_kernel (c : Dev nD) (E : Set ℕ) (i : grid0.Coords)
    (arg2 : Memref sig .tc .vmem S256x4096 .f32) (harg2 : arg2.IsWhole) (arg3 : Memref sig .tc .vmem S4096x1536 .bf16) (harg3 : arg3.IsWhole)
    (arg4 : Memref sig .tc .vmem S4096x48 .bf16) (harg4 : arg4.IsWhole) (arg5 : Memref sig .tc .vmem S48x1536 .bf16) (harg5 : arg5.IsWhole)
    (arg6 : Memref sig .tc .vmem S1x1536 .f32) (harg6 : arg6.IsWhole) (arg7 : Memref sig .tc .vmem S256x1536 .f32) (harg7 : arg7.IsWhole)
    (x0 : Vec F S256x4096 .f32) (x1 : Vec F S4096x1536 .bf16) (x2 : Vec F S4096x48 .bf16) (x3 : Vec F S48x1536 .bf16) (x4 : Vec F S1x1536 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x1 x2 x3 x4)) -∗ K ⟨⟩))
      ⊢ wp frame (wpE (defs₀ (F := F)) Variants.none c none) E (cc0__qkv_lora_kernel i arg2 harg2 arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The body obligation, at a generic point -/

/-- What the body is called with at point `t`, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debt pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
private theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, for any values: every weakly fair execution of the program on the TensorCores
    terminates, and every final state has every array of the pipeline at what the proof data gives and every other
    unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c),
     ((h c).2 main_arg7 (Pipeline.mem_restRefs_of main_arg7 (by decide) (by decide))).trans (W_main_arg7 m c),
     ((h c).2 main_arg8 (Pipeline.mem_restRefs_of main_arg8 (by decide) (by decide))).trans (W_main_arg8 m c),
     ((h c).2 main_arg9 (Pipeline.mem_restRefs_of main_arg9 (by decide) (by decide))).trans (W_main_arg9 m c),
     ((h c).2 main_arg10 (Pipeline.mem_restRefs_of main_arg10 (by decide) (by decide))).trans (W_main_arg10 m c),
     ((h c).2 main_arg11 (Pipeline.mem_restRefs_of main_arg11 (by decide) (by decide))).trans (W_main_arg11 m c),
     ((h c).2 main_arg12 (Pipeline.mem_restRefs_of main_arg12 (by decide) (by decide))).trans (W_main_arg12 m c)⟩) (run_main m ρ)

/-- The same run with the three results named. -/
theorem results_run : θ_run defs (onTc (τ := τ) (main (F := F))) ⟨m, fun _ => 0, ρ⟩ (fun r => ∀ c : Dev nD,
      r.2.mem ((c.tc : Thread nD τ).loc main_v20) = Pipeline.afterTail₀ cfgs (dats m) 0 (V0 m) [hostOps1] c main_v20
      ∧ r.2.mem ((c.tc : Thread nD τ).loc main_v21) = Pipeline.afterTail₀ cfgs (dats m) 0 (V0 m) [hostOps1] c main_v21
      ∧ r.2.mem ((c.tc : Thread nD τ).loc main_v22) = Pipeline.afterTail₀ cfgs (dats m) 0 (V0 m) [hostOps1] c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c).2 main_v20 (Pipeline.mem_restRefs_of main_v20 (by decide) (by decide)),
     (h c).2 main_v21 (Pipeline.mem_restRefs_of main_v21 (by decide) (by decide)),
     (h c).2 main_v22 (Pipeline.mem_restRefs_of main_v22 (by decide) (by decide)),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c),
     ((h c).2 main_arg7 (Pipeline.mem_restRefs_of main_arg7 (by decide) (by decide))).trans (W_main_arg7 m c),
     ((h c).2 main_arg8 (Pipeline.mem_restRefs_of main_arg8 (by decide) (by decide))).trans (W_main_arg8 m c),
     ((h c).2 main_arg9 (Pipeline.mem_restRefs_of main_arg9 (by decide) (by decide))).trans (W_main_arg9 m c),
     ((h c).2 main_arg10 (Pipeline.mem_restRefs_of main_arg10 (by decide) (by decide))).trans (W_main_arg10 m c),
     ((h c).2 main_arg11 (Pipeline.mem_restRefs_of main_arg11 (by decide) (by decide))).trans (W_main_arg11 m c),
     ((h c).2 main_arg12 (Pipeline.mem_restRefs_of main_arg12 (by decide) (by decide))).trans (W_main_arg12 m c)⟩) (run_main m ρ)

end Cert.Kernel.Hand

end
-- ==== Proof.KIData.lean ====
/-
  What the one pipeline of the fused QKV projection is run against. The region is entered after the host
  lines that build the fused operands (the three weight matrices transposed and laid side by side, the three
  LoRA down-projections side by side, the block-diagonal LoRA up-projection, the three biases in one row) and
  flatten the activations to 8192 rows. `V` names each buffer's contents at that moment; `iblk` is the block
  of a window's array that grid point `t` works on; `outBlk` is the one tile the body stores, as a function
  of the five tiles it loads; `dats` is the pipeline's proof data: inputs stay as their blocks, the output
  tile is `outBlk` of them, nothing else is touched.
-/
import proofs.«116329_j61770219651785_1_alg».proof.Proof.Gen.KernelIdeal.Launch
import proofs.«116329_j61770219651785_1_alg».proof.Proof.Gen.KernelIdeal.Skeleton
import proofs.«116329_j61770219651785_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-tile rectangles the body loads and stores through. -/
abbrev rX : Rect S256x4096 := Rect.unit (s := S256x4096) ![0, 0] S256x4096.size inb_S256x4096_S256x4096_0_0
abbrev rW : Rect S4096x1536 := Rect.unit (s := S4096x1536) ![0, 0] S4096x1536.size inb_S4096x1536_S4096x1536_0_0
abbrev rA : Rect S4096x48 := Rect.unit (s := S4096x48) ![0, 0] S4096x48.size inb_S4096x48_S4096x48_0_0
abbrev rB : Rect S48x1536 := Rect.unit (s := S48x1536) ![0, 0] S48x1536.size inb_S48x1536_S48x1536_0_0
abbrev rBias : Rect S1x1536 := Rect.unit (s := S1x1536) ![0, 0] S1x1536.size inb_S1x1536_S1x1536_0_0
abbrev rO : Rect S256x1536 := Rect.unit (s := S256x1536) ![0, 0] S256x1536.size inb_S256x1536_S256x1536_0_0

/-- The output tile after the body: its one store, of the payload of the five loaded tiles. -/
def outBlk (x : Vec F S256x4096 .f32) (w : Vec F S4096x1536 .bf16) (a : Vec F S4096x48 .bf16) (b : Vec F S48x1536 .bf16)
    (bias : Vec F S1x1536 .f32) : Vec F S256x1536 .f32 :=
  View.canon [⟨rO, k0_pay1 (View.ld x rX) (View.ld w rW) (View.ld a rA) (View.ld b rB) (View.ld bias rBias)⟩]

/-- The one store covers the tile. -/
theorem outCover (p0 : Vec F S256x1536 .f32) (y : S256x1536.Idx) :
    ∃ pc ∈ ([⟨rO, p0⟩] : List (View.Piece (Elt F) S256x1536 .f32)), y ∈ pc.1.set :=
  View.cover_of_tiled [⟨rO, p0⟩] S256x1536.size (by rfl) y

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlk (iblk m c 0 t) (iblk m c 1 t) (iblk m c 2 t) (iblk m c 3 t) (iblk m c 4 t) := by dsimp only [dats]

end Cert.KernelIdeal.Hand

end
-- ==== Proof.KIFrame.lean ====
/- The frame run of the fused projection's program: the host lines, the pipeline over its 128 grid points, the host
   lines after it; every weakly fair execution ends, nothing faults, the arguments are unchanged. -/
import proofs.«116329_j61770219651785_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The host lines allocate nothing. -/
private theorem hostOps0_fresh : (hostOps0 : List (HloOp τ sig (Elt F))).Forall fun op => op.fresh = ∅ := by
  simp only [List.Forall]; repeat' constructor
private theorem hostOps1_fresh : (hostOps1 : List (HloOp τ sig (Elt F))).Forall fun op => op.fresh = ∅ := by
  simp only [List.Forall]; repeat' constructor

/-- The program is the host lines before the region, the region, and the host lines after it: it reduces to the
    region continued by the later lines. -/
private theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only. -/
private theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
private theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no array. -/
private theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments: written by no host line, before the region or after it -/

private theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

private theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem W_main_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (c : Dev nD) : Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (c : Dev nD) : Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (c : Dev nD) : Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg7 (c : Dev nD) : Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (c : Dev nD) : Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg9 (c : Dev nD) : Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg10 (c : Dev nD) : Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem W_main_arg11 (c : Dev nD) : Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg12 (c : Dev nD) : Pipeline.afterTail₀ cfgs (dats m) 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## What the body finds in each input window's buffer -/

/-- Input window 0's current buffer holds its block at every point, fetched there or not: unfetched, the block
    index has not moved. -/
private theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Input window 1's current buffer holds its block at every point, fetched there or not: unfetched, the block
    index has not moved. -/
private theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Input window 2's current buffer holds its block at every point, fetched there or not: unfetched, the block
    index has not moved. -/
private theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Input window 3's current buffer holds its block at every point, fetched there or not: unfetched, the block
    index has not moved. -/
private theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Input window 4's current buffer holds its block at every point, fetched there or not: unfetched, the block
    index has not moved. -/
private theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the five inputs' at read contents `x0 … x4` and the output's at anything,
    runs to the continuation holding the inputs' as they were and the output's at `outBlk` of the inputs'. -/
private theorem sound_kernel (c : Dev nD) (E : Set ℕ) (i : grid0.Coords)
    (arg2 : Memref sig .tc .vmem S256x4096 .f32) (harg2 : arg2.IsWhole) (arg3 : Memref sig .tc .vmem S4096x1536 .bf16) (harg3 : arg3.IsWhole)
    (arg4 : Memref sig .tc .vmem S4096x48 .bf16) (harg4 : arg4.IsWhole) (arg5 : Memref sig .tc .vmem S48x1536 .bf16) (harg5 : arg5.IsWhole)
    (arg6 : Memref sig .tc .vmem S1x1536 .f32) (harg6 : arg6.IsWhole) (arg7 : Memref sig .tc .vmem S256x1536 .f32) (harg7 : arg7.IsWhole)
    (x0 : Vec F S256x4096 .f32) (x1 : Vec F S4096x1536 .bf16) (x2 : Vec F S4096x48 .bf16) (x3 : Vec F S48x1536 .bf16) (x4 : Vec F S1x1536 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x1 x2 x3 x4)) -∗ K ⟨⟩))
      ⊢ wp frame (wpE (defs₀ (F := F)) Variants.none c none) E (cc0__qkv_lora_kernel i arg2 harg2 arg3 harg3 arg4 harg4 arg5 harg5 arg6 harg6 arg7 harg7) K := by
  simp only [cc0__qkv_lora_kernel_eq_skeleton]; unfold cc0__qkv_lora_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The body obligation, at a generic point -/

/-- What the body is called with at point `t`, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debt pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
private theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, for any values: every weakly fair execution of the program on the TensorCores
    terminates, and every final state has every array of the pipeline at what the proof data gives and every other
    unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c),
     ((h c).2 main_arg7 (Pipeline.mem_restRefs_of main_arg7 (by decide) (by decide))).trans (W_main_arg7 m c),
     ((h c).2 main_arg8 (Pipeline.mem_restRefs_of main_arg8 (by decide) (by decide))).trans (W_main_arg8 m c),
     ((h c).2 main_arg9 (Pipeline.mem_restRefs_of main_arg9 (by decide) (by decide))).trans (W_main_arg9 m c),
     ((h c).2 main_arg10 (Pipeline.mem_restRefs_of main_arg10 (by decide) (by decide))).trans (W_main_arg10 m c),
     ((h c).2 main_arg11 (Pipeline.mem_restRefs_of main_arg11 (by decide) (by decide))).trans (W_main_arg11 m c),
     ((h c).2 main_arg12 (Pipeline.mem_restRefs_of main_arg12 (by decide) (by decide))).trans (W_main_arg12 m c)⟩) (run_main m ρ)

/-- The same run with the three results named. -/
theorem results_run : θ_run defs (onTc (τ := τ) (main (F := F))) ⟨m, fun _ => 0, ρ⟩ (fun r => ∀ c : Dev nD,
      r.2.mem ((c.tc : Thread nD τ).loc main_v20) = Pipeline.afterTail₀ cfgs (dats m) 0 (V0 m) [hostOps1] c main_v20
      ∧ r.2.mem ((c.tc : Thread nD τ).loc main_v21) = Pipeline.afterTail₀ cfgs (dats m) 0 (V0 m) [hostOps1] c main_v21
      ∧ r.2.mem ((c.tc : Thread nD τ).loc main_v22) = Pipeline.afterTail₀ cfgs (dats m) 0 (V0 m) [hostOps1] c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c).2 main_v20 (Pipeline.mem_restRefs_of main_v20 (by decide) (by decide)),
     (h c).2 main_v21 (Pipeline.mem_restRefs_of main_v21 (by decide) (by decide)),
     (h c).2 main_v22 (Pipeline.mem_restRefs_of main_v22 (by decide) (by decide)),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c),
     ((h c).2 main_arg7 (Pipeline.mem_restRefs_of main_arg7 (by decide) (by decide))).trans (W_main_arg7 m c),
     ((h c).2 main_arg8 (Pipeline.mem_restRefs_of main_arg8 (by decide) (by decide))).trans (W_main_arg8 m c),
     ((h c).2 main_arg9 (Pipeline.mem_restRefs_of main_arg9 (by decide) (by decide))).trans (W_main_arg9 m c),
     ((h c).2 main_arg10 (Pipeline.mem_restRefs_of main_arg10 (by decide) (by decide))).trans (W_main_arg10 m c),
     ((h c).2 main_arg11 (Pipeline.mem_restRefs_of main_arg11 (by decide) (by decide))).trans (W_main_arg11 m c),
     ((h c).2 main_arg12 (Pipeline.mem_restRefs_of main_arg12 (by decide) (by decide))).trans (W_main_arg12 m c)⟩) (run_main m ρ)

end Cert.KernelIdeal.Hand

end
-- ==== Proof.Spec.lean ====
/-
  The mathematics both programs compute, over the extended reals.

  One projection (query, key or value) of a row `x[b, s, ·]` is
      x · Wᵀ  +  2 · ((x · A) · B)  +  bias
  — the base linear map, twice the rank-16 LoRA correction, the bias — and that is how the reference
  computes it, three times.  The kernel computes all three at once: one product with the three transposed
  weights side by side, one product with the three down-projections side by side (48 columns), and one
  product of that with a block-diagonal 48 × 6144 up-projection whose off-diagonal blocks are zero.  In the
  48-term inner sum of the fused correction, the 32 terms outside a column's own block are a number times
  zero, which is zero for every extended real, so the sum is the 16-term sum of that block alone.  Nothing
  here needs the inputs to be finite.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- The LoRA scaling, `alpha / r = 2`, as both programs spell it. -/
abbrev two : EReal := Ideal.ofBits .f32 0x40000000#32

/-- The query projection at batch `b`, position `s`, output channel `o` (4096 channels). -/
def projQ (x : (⟨3, ![4, 2048, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal)
    (bias : (⟨1, ![4096]⟩ : Shape).Idx → EReal) (b : Fin 4) (s : Fin 2048) (o : Fin 4096) : EReal :=
  (∑ h : Fin 4096, x (ix3 b s h) * W (ix2 o h))
    + two * (∑ r : Fin 16, (∑ h : Fin 4096, x (ix3 b s h) * A (ix2 h r)) * B (ix2 r o))
    + bias (ix1 o)

/-- The key and the value projection (1024 channels each): the same formula. -/
def projKV (x : (⟨3, ![4, 2048, 4096]⟩ : Shape).Idx → EReal) (W : (⟨2, ![1024, 4096]⟩ : Shape).Idx → EReal)
    (A : (⟨2, ![4096, 16]⟩ : Shape).Idx → EReal) (B : (⟨2, ![16, 1024]⟩ : Shape).Idx → EReal)
    (bias : (⟨1, ![1024]⟩ : Shape).Idx → EReal) (b : Fin 4) (s : Fin 2048) (o : Fin 1024) : EReal :=
  (∑ h : Fin 4096, x (ix3 b s h) * W (ix2 o h))
    + two * (∑ r : Fin 16, (∑ h : Fin 4096, x (ix3 b s h) * A (ix2 h r)) * B (ix2 r o))
    + bias (ix1 o)

/-- What the kernel's fused output array holds at row `p` (of 8192) and column `j` (of 6144), from the flattened
    activations `X`, the fused weights `W`, the fused down-projections `A`, the block-diagonal up-projection `B`
    and the bias row. -/
def fused (X : (⟨2, ![8192, 4096]⟩ : Shape).Idx → EReal) (W : (⟨2, ![4096, 6144]⟩ : Shape).Idx → EReal)
    (A : (⟨2, ![4096, 48]⟩ : Shape).Idx → EReal) (B : (⟨2, ![48, 6144]⟩ : Shape).Idx → EReal)
    (bias : (⟨2, ![1, 6144]⟩ : Shape).Idx → EReal) (p : Fin 8192) (j : Fin 6144) : EReal :=
  (∑ h : Fin 4096, X (ix2 p h) * W (ix2 h j))
    + two * (∑ r : Fin 48, (∑ h : Fin 4096, X (ix2 p h) * A (ix2 h r)) * B (ix2 r j))
    + bias (ix2 (0 : Fin 1) j)

/-- A 48-term sum as its three 16-term blocks. -/
theorem sum48_blocks (f : Fin 48 → EReal) :
    ∑ r, f r = (∑ r : Fin 16, f ⟨r.val, by omega⟩) + (∑ r : Fin 16, f ⟨16 + r.val, by omega⟩)
      + (∑ r : Fin 16, f ⟨32 + r.val, by omega⟩) := by
  have h1 := Fin.sum_univ_add (a := 16) (b := 32) f
  have h2 := Fin.sum_univ_add (a := 16) (b := 16) (fun i : Fin 32 => f (Fin.natAdd 16 i))
  rw [h1, h2, add_assoc]
  rfl

/-- When only the first block is non-zero. -/
theorem sum48_first (f : Fin 48 → EReal) (hz : ∀ r : Fin 48, 16 ≤ r.val → f r = 0) :
    ∑ r, f r = ∑ r : Fin 16, f ⟨r.val, by omega⟩ := by
  have h2 : (∑ r : Fin 16, f ⟨16 + r.val, by omega⟩) = 0 :=
    Finset.sum_eq_zero (fun r _ => hz ⟨16 + r.val, by omega⟩ (Nat.le_add_right 16 r.val))
  have h3 : (∑ r : Fin 16, f ⟨32 + r.val, by omega⟩) = 0 :=
    Finset.sum_eq_zero (fun r _ => hz ⟨32 + r.val, by omega⟩ (by show 16 ≤ 32 + r.val; omega))
  rw [sum48_blocks, h2, h3, add_zero, add_zero]

/-- When only the middle block is non-zero. -/
theorem sum48_second (f : Fin 48 → EReal) (hz : ∀ r : Fin 48, (r.val < 16 ∨ 32 ≤ r.val) → f r = 0) :
    ∑ r, f r = ∑ r : Fin 16, f ⟨16 + r.val, by omega⟩ := by
  have h1 : (∑ r : Fin 16, f ⟨r.val, by omega⟩) = 0 :=
    Finset.sum_eq_zero (fun r _ => hz ⟨r.val, by omega⟩ (Or.inl r.isLt))
  have h3 : (∑ r : Fin 16, f ⟨32 + r.val, by omega⟩) = 0 :=
    Finset.sum_eq_zero (fun r _ => hz ⟨32 + r.val, by omega⟩ (Or.inr (Nat.le_add_right 32 r.val)))
  rw [sum48_blocks, h1, h3, zero_add, add_zero]

/-- When only the last block is non-zero. -/
theorem sum48_third (f : Fin 48 → EReal) (hz : ∀ r : Fin 48, r.val < 32 → f r = 0) :
    ∑ r, f r = ∑ r : Fin 16, f ⟨32 + r.val, by omega⟩ := by
  have h1 : (∑ r : Fin 16, f ⟨r.val, by omega⟩) = 0 :=
    Finset.sum_eq_zero (fun r _ => hz ⟨r.val, by omega⟩ (by show r.val < 32; omega))
  have h2 : (∑ r : Fin 16, f ⟨16 + r.val, by omega⟩) = 0 :=
    Finset.sum_eq_zero (fun r _ => hz ⟨16 + r.val, by omega⟩ (by show 16 + r.val < 32; omega))
  rw [sum48_blocks, h1, h2, zero_add, zero_add]

end Cert.Spec

end
-- ==== Proof.KIOut.lean ====
/- What the pipeline leaves in the fused output array, at the ideal instance: entry (p, j) is the fused formula of the
   five arrays the region was entered with.

   The body's stored tile is, entry by entry, the base product of the activations' tile with the weights' tile, plus twice
   the product of (activations times down-projections) with the up-projection's tile, plus the bias row — three one-axis
   contractions into a zero accumulator, the changes of float format being the identity on extended reals. Grid point t
   works on row block t mod 32 and column block t / 32; each loaded tile is the matching rows or columns of its array, so
   the stored tile is that block of the fused formula. The 32 × 4 blocks of 256 × 1536 tile the 8192 × 6144 array, so
   the array ends holding the fused formula everywhere. No sum or product is rearranged: the formula is read off as it
   stands, and nothing needs the inputs to be finite. -/
import proofs.«116329_j61770219651785_1_alg».proof.Proof.KIData
import proofs.«116329_j61770219651785_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The three products of the body, entry by entry

Each is a contraction over one axis into a zero accumulator: entry (p, q) is the sum over the contracted axis of the
left factor's row p times the right factor's column q. -/

theorem lhs_xw_0 (i : S256x1536.Idx) (q : dot_S256x4096_S4096x1536_S256x1536_1_0_0_1_n_n.contr.Idx) :
    (dot_S256x4096_S4096x1536_S256x1536_1_0_0_1_n_n.lhsIdx i q 0).val = (i 0).val := by
  unfold DotDims.lhsIdx
  rw [dif_neg (show ¬(0 : Fin S256x4096.rank) ∈ dot_S256x4096_S4096x1536_S256x1536_1_0_0_1_n_n.lhsBatch by decide), dif_pos (show (0 : Fin S256x4096.rank) ∈ dot_S256x4096_S4096x1536_S256x1536_1_0_0_1_n_n.lhsNonContracting by decide)]
  rfl
theorem lhs_xw_1 (i : S256x1536.Idx) (q : dot_S256x4096_S4096x1536_S256x1536_1_0_0_1_n_n.contr.Idx) :
    (dot_S256x4096_S4096x1536_S256x1536_1_0_0_1_n_n.lhsIdx i q 1).val = (q ⟨0, by decide⟩).val :=
  dot_S256x4096_S4096x1536_S256x1536_1_0_0_1_n_n.lhsIdx_val_of_single rfl i q
theorem rhs_xw_0 (i : S256x1536.Idx) (q : dot_S256x4096_S4096x1536_S256x1536_1_0_0_1_n_n.contr.Idx) :
    (dot_S256x4096_S4096x1536_S256x1536_1_0_0_1_n_n.rhsIdx i q 0).val = (q ⟨0, by decide⟩).val :=
  dot_S256x4096_S4096x1536_S256x1536_1_0_0_1_n_n.rhsIdx_val_of_single rfl i q
theorem rhs_xw_1 (i : S256x1536.Idx) (q : dot_S256x4096_S4096x1536_S256x1536_1_0_0_1_n_n.contr.Idx) :
    (dot_S256x4096_S4096x1536_S256x1536_1_0_0_1_n_n.rhsIdx i q 1).val = (i 1).val := by
  unfold DotDims.rhsIdx
  rw [dif_neg (show ¬(1 : Fin S4096x1536.rank) ∈ dot_S256x4096_S4096x1536_S256x1536_1_0_0_1_n_n.rhsBatch by decide), dif_pos (show (1 : Fin S4096x1536.rank) ∈ dot_S256x4096_S4096x1536_S256x1536_1_0_0_1_n_n.rhsNonContracting by decide)]
  rfl

/-- The activations' tile times the weights' tile. -/
theorem matmul_xw (l : FVec Ideal S256x4096 .bf16) (r : FVec Ideal S4096x1536 .bf16) (p : Fin 256) (q : Fin 1536) :
    matmul dot_S256x4096_S4096x1536_S256x1536_1_0_0_1_n_n none l r (constant (F := Ideal) S256x1536 .f32 0x00000000#32) (ix2 p q)
      = ∑ k : Fin 4096, l (ix2 p k) * r (ix2 k q) := by
  refine (Ideal.matmul_constant_zero_apply dot_S256x4096_S4096x1536_S256x1536_1_0_0_1_n_n none l r (ix2 p q)).trans ?_
  rw [← Equiv.sum_comp (ValueIdx.contrEquiv1 dot_S256x4096_S4096x1536_S256x1536_1_0_0_1_n_n 4096 rfl rfl).symm]
  refine Finset.sum_congr rfl fun k _ => ?_
  have hk := ValueIdx.contrEquiv1_symm_val dot_S256x4096_S4096x1536_S256x1536_1_0_0_1_n_n 4096 rfl rfl k
  have el : dot_S256x4096_S4096x1536_S256x1536_1_0_0_1_n_n.lhsIdx (ix2 p q) ((ValueIdx.contrEquiv1 dot_S256x4096_S4096x1536_S256x1536_1_0_0_1_n_n 4096 rfl rfl).symm k) = ix2 p k := funext fun a => Fin.ext (by
    match a with
    | ⟨0, _⟩ => exact lhs_xw_0 _ _
    | ⟨1, _⟩ => exact (lhs_xw_1 _ _).trans hk)
  have er : dot_S256x4096_S4096x1536_S256x1536_1_0_0_1_n_n.rhsIdx (ix2 p q) ((ValueIdx.contrEquiv1 dot_S256x4096_S4096x1536_S256x1536_1_0_0_1_n_n 4096 rfl rfl).symm k) = ix2 k q := funext fun a => Fin.ext (by
    match a with
    | ⟨0, _⟩ => exact (rhs_xw_0 _ _).trans hk
    | ⟨1, _⟩ => exact rhs_xw_1 _ _)
  rw [el, er]

theorem lhs_xa_0 (i : S256x48.Idx) (q : dot_S256x4096_S4096x48_S256x48_1_0_0_1_n_n.contr.Idx) :
    (dot_S256x4096_S4096x48_S256x48_1_0_0_1_n_n.lhsIdx i q 0).val = (i 0).val := by
  unfold DotDims.lhsIdx
  rw [dif_neg (show ¬(0 : Fin S256x4096.rank) ∈ dot_S256x4096_S4096x48_S256x48_1_0_0_1_n_n.lhsBatch by decide), dif_pos (show (0 : Fin S256x4096.rank) ∈ dot_S256x4096_S4096x48_S256x48_1_0_0_1_n_n.lhsNonContracting by decide)]
  rfl
theorem lhs_xa_1 (i : S256x48.Idx) (q : dot_S256x4096_S4096x48_S256x48_1_0_0_1_n_n.contr.Idx) :
    (dot_S256x4096_S4096x48_S256x48_1_0_0_1_n_n.lhsIdx i q 1).val = (q ⟨0, by decide⟩).val :=
  dot_S256x4096_S4096x48_S256x48_1_0_0_1_n_n.lhsIdx_val_of_single rfl i q
theorem rhs_xa_0 (i : S256x48.Idx) (q : dot_S256x4096_S4096x48_S256x48_1_0_0_1_n_n.contr.Idx) :
    (dot_S256x4096_S4096x48_S256x48_1_0_0_1_n_n.rhsIdx i q 0).val = (q ⟨0, by decide⟩).val :=
  dot_S256x4096_S4096x48_S256x48_1_0_0_1_n_n.rhsIdx_val_of_single rfl i q
theorem rhs_xa_1 (i : S256x48.Idx) (q : dot_S256x4096_S4096x48_S256x48_1_0_0_1_n_n.contr.Idx) :
    (dot_S256x4096_S4096x48_S256x48_1_0_0_1_n_n.rhsIdx i q 1).val = (i 1).val := by
  unfold DotDims.rhsIdx
  rw [dif_neg (show ¬(1 : Fin S4096x48.rank) ∈ dot_S256x4096_S4096x48_S256x48_1_0_0_1_n_n.rhsBatch by decide), dif_pos (show (1 : Fin S4096x48.rank) ∈ dot_S256x4096_S4096x48_S256x48_1_0_0_1_n_n.rhsNonContracting by decide)]
  rfl

/-- The activations' tile times the down-projections. -/
theorem matmul_xa (l : FVec Ideal S256x4096 .bf16) (r : FVec Ideal S4096x48 .bf16) (p : Fin 256) (q : Fin 48) :
    matmul dot_S256x4096_S4096x48_S256x48_1_0_0_1_n_n none l r (constant (F := Ideal) S256x48 .f32 0x00000000#32) (ix2 p q)
      = ∑ k : Fin 4096, l (ix2 p k) * r (ix2 k q) := by
  refine (Ideal.matmul_constant_zero_apply dot_S256x4096_S4096x48_S256x48_1_0_0_1_n_n none l r (ix2 p q)).trans ?_
  rw [← Equiv.sum_comp (ValueIdx.contrEquiv1 dot_S256x4096_S4096x48_S256x48_1_0_0_1_n_n 4096 rfl rfl).symm]
  refine Finset.sum_congr rfl fun k _ => ?_
  have hk := ValueIdx.contrEquiv1_symm_val dot_S256x4096_S4096x48_S256x48_1_0_0_1_n_n 4096 rfl rfl k
  have el : dot_S256x4096_S4096x48_S256x48_1_0_0_1_n_n.lhsIdx (ix2 p q) ((ValueIdx.contrEquiv1 dot_S256x4096_S4096x48_S256x48_1_0_0_1_n_n 4096 rfl rfl).symm k) = ix2 p k := funext fun a => Fin.ext (by
    match a with
    | ⟨0, _⟩ => exact lhs_xa_0 _ _
    | ⟨1, _⟩ => exact (lhs_xa_1 _ _).trans hk)
  have er : dot_S256x4096_S4096x48_S256x48_1_0_0_1_n_n.rhsIdx (ix2 p q) ((ValueIdx.contrEquiv1 dot_S256x4096_S4096x48_S256x48_1_0_0_1_n_n 4096 rfl rfl).symm k) = ix2 k q := funext fun a => Fin.ext (by
    match a with
    | ⟨0, _⟩ => exact (rhs_xa_0 _ _).trans hk
    | ⟨1, _⟩ => exact rhs_xa_1 _ _)
  rw [el, er]

theorem lhs_tb_0 (i : S256x1536.Idx) (q : dot_S256x48_S48x1536_S256x1536_1_0_0_1_n_n.contr.Idx) :
    (dot_S256x48_S48x1536_S256x1536_1_0_0_1_n_n.lhsIdx i q 0).val = (i 0).val := by
  unfold DotDims.lhsIdx
  rw [dif_neg (show ¬(0 : Fin S256x48.rank) ∈ dot_S256x48_S48x1536_S256x1536_1_0_0_1_n_n.lhsBatch by decide), dif_pos (show (0 : Fin S256x48.rank) ∈ dot_S256x48_S48x1536_S256x1536_1_0_0_1_n_n.lhsNonContracting by decide)]
  rfl
theorem lhs_tb_1 (i : S256x1536.Idx) (q : dot_S256x48_S48x1536_S256x1536_1_0_0_1_n_n.contr.Idx) :
    (dot_S256x48_S48x1536_S256x1536_1_0_0_1_n_n.lhsIdx i q 1).val = (q ⟨0, by decide⟩).val :=
  dot_S256x48_S48x1536_S256x1536_1_0_0_1_n_n.lhsIdx_val_of_single rfl i q
theorem rhs_tb_0 (i : S256x1536.Idx) (q : dot_S256x48_S48x1536_S256x1536_1_0_0_1_n_n.contr.Idx) :
    (dot_S256x48_S48x1536_S256x1536_1_0_0_1_n_n.rhsIdx i q 0).val = (q ⟨0, by decide⟩).val :=
  dot_S256x48_S48x1536_S256x1536_1_0_0_1_n_n.rhsIdx_val_of_single rfl i q
theorem rhs_tb_1 (i : S256x1536.Idx) (q : dot_S256x48_S48x1536_S256x1536_1_0_0_1_n_n.contr.Idx) :
    (dot_S256x48_S48x1536_S256x1536_1_0_0_1_n_n.rhsIdx i q 1).val = (i 1).val := by
  unfold DotDims.rhsIdx
  rw [dif_neg (show ¬(1 : Fin S48x1536.rank) ∈ dot_S256x48_S48x1536_S256x1536_1_0_0_1_n_n.rhsBatch by decide), dif_pos (show (1 : Fin S48x1536.rank) ∈ dot_S256x48_S48x1536_S256x1536_1_0_0_1_n_n.rhsNonContracting by decide)]
  rfl

/-- The 48 low-rank coordinates times the up-projection's tile. -/
theorem matmul_tb (l : FVec Ideal S256x48 .bf16) (r : FVec Ideal S48x1536 .bf16) (p : Fin 256) (q : Fin 1536) :
    matmul dot_S256x48_S48x1536_S256x1536_1_0_0_1_n_n none l r (constant (F := Ideal) S256x1536 .f32 0x00000000#32) (ix2 p q)
      = ∑ k : Fin 48, l (ix2 p k) * r (ix2 k q) := by
  refine (Ideal.matmul_constant_zero_apply dot_S256x48_S48x1536_S256x1536_1_0_0_1_n_n none l r (ix2 p q)).trans ?_
  rw [← Equiv.sum_comp (ValueIdx.contrEquiv1 dot_S256x48_S48x1536_S256x1536_1_0_0_1_n_n 48 rfl rfl).symm]
  refine Finset.sum_congr rfl fun k _ => ?_
  have hk := ValueIdx.contrEquiv1_symm_val dot_S256x48_S48x1536_S256x1536_1_0_0_1_n_n 48 rfl rfl k
  have el : dot_S256x48_S48x1536_S256x1536_1_0_0_1_n_n.lhsIdx (ix2 p q) ((ValueIdx.contrEquiv1 dot_S256x48_S48x1536_S256x1536_1_0_0_1_n_n 48 rfl rfl).symm k) = ix2 p k := funext fun a => Fin.ext (by
    match a with
    | ⟨0, _⟩ => exact lhs_tb_0 _ _
    | ⟨1, _⟩ => exact (lhs_tb_1 _ _).trans hk)
  have er : dot_S256x48_S48x1536_S256x1536_1_0_0_1_n_n.rhsIdx (ix2 p q) ((ValueIdx.contrEquiv1 dot_S256x48_S48x1536_S256x1536_1_0_0_1_n_n 48 rfl rfl).symm k) = ix2 k q := funext fun a => Fin.ext (by
    match a with
    | ⟨0, _⟩ => exact (rhs_tb_0 _ _).trans hk
    | ⟨1, _⟩ => exact rhs_tb_1 _ _)
  rw [el, er]

/-- The one-row bias laid along every row of the tile: entry (p, q) is the row's entry q. -/
theorem bias_rows (bias : FVec Ideal S1x1536 .f32) (hb : S1x1536.Broadcasts S256x1536) (p : Fin 256) (q : Fin 1536) :
    broadcastTo S256x1536 bias hb (ix2 p q) = bias (ix2 (0 : Fin 1) q) := by
  refine broadcastTo_apply bias hb (ix2 p q) (ix2 (0 : Fin 1) q) (fun a => ?_)
  match a with
  | ⟨0, _⟩ => show 0 = if (1 : Nat) = 1 then 0 else _; rw [if_pos rfl]
  | ⟨1, _⟩ => show q.val = if (1536 : Nat) = 1 then 0 else q.val; rw [if_neg (by decide)]

/-- THE BODY'S STORED TILE, entry (p, q): the base product, plus twice the low-rank correction, plus the bias. -/
theorem pay_apply (x : Vec Ideal S256x4096 .f32) (w : Vec Ideal S4096x1536 .bf16) (a : Vec Ideal S4096x48 .bf16)
    (b : Vec Ideal S48x1536 .bf16) (bias : Vec Ideal S1x1536 .f32) (p : Fin 256) (q : Fin 1536) :
    k0_pay1 (F := Ideal) x w a b bias (ix2 p q)
      = (∑ h : Fin 4096, x (ix2 p h) * w (ix2 h q))
        + Cert.Spec.two * (∑ r : Fin 48, (∑ h : Fin 4096, x (ix2 p h) * a (ix2 h r)) * b (ix2 r q))
        + bias (ix2 (0 : Fin 1) q) := by
  unfold k0_pay1
  simp only [shapeCast_self]
  refine (addf_apply _ _ (ix2 p q)).trans ?_
  refine congrArg₂ (· + ·) ((addf_apply _ _ (ix2 p q)).trans (congrArg₂ (· + ·) ?_ ?_)) ?_
  · exact matmul_xw _ _ p q
  · refine (mulf_apply _ _ (ix2 p q)).trans (congrArg₂ (· * ·) rfl ?_)
    refine (matmul_tb _ _ p q).trans (Finset.sum_congr rfl fun r _ => congrArg₂ (· * ·) ?_ rfl)
    exact matmul_xa _ _ p r
  · exact bias_rows _ _ p q

/-! ## From the tile to the array

Grid point t works on row block t mod 32 and column block t / 32 of the output. Its activations' tile is that row block
(all 4096 columns); its weights', up-projection's and bias tiles are that column block; the down-projections are whole. -/

/-- The tile of the fused formula: when the five loaded tiles are the matching rows and columns of five arrays, the stored
    tile's entry (p, q) is the fused formula of the arrays at the matching row P and column J. -/
theorem tile_entry (X : S8192x4096.Idx → EReal) (W : S4096x6144.Idx → EReal) (A : S4096x48.Idx → EReal)
    (B : S48x6144.Idx → EReal) (Bi : S1x6144.Idx → EReal)
    (x : Vec Ideal S256x4096 .f32) (w : Vec Ideal S4096x1536 .bf16) (a : Vec Ideal S4096x48 .bf16)
    (b : Vec Ideal S48x1536 .bf16) (bias : Vec Ideal S1x1536 .f32)
    (p : Fin 256) (q : Fin 1536) (P : Fin 8192) (J : Fin 6144)
    (hx : ∀ h : Fin 4096, x (ix2 p h) = X (ix2 P h))
    (hw : ∀ h : Fin 4096, w (ix2 h q) = W (ix2 h J))
    (ha : ∀ (h : Fin 4096) (r : Fin 48), a (ix2 h r) = A (ix2 h r))
    (hb : ∀ r : Fin 48, b (ix2 r q) = B (ix2 r J))
    (hbias : bias (ix2 (0 : Fin 1) q) = Bi (ix2 (0 : Fin 1) J)) :
    k0_pay1 (F := Ideal) x w a b bias (ix2 p q) = Cert.Spec.fused X W A B Bi P J := by
  rw [pay_apply]
  unfold Cert.Spec.fused
  simp only [hx, hw, ha, hb, hbias]

theorem hz : (![0, 0] : Fin 2 → Nat) = fun _ => 0 := funext fun a => by fin_cases a <;> rfl

/-- The index maps over the grid: the output's block is (t mod 32, t / 32); the activations follow its row block, the weights,
    the up-projection and the bias its column block, and the down-projections stay. -/
theorem idx_facts : ∀ t : Fin cfg0.N,
    win0_5.index t (0 : Fin 2) = t.val % 32 ∧ win0_5.index t (1 : Fin 2) = t.val / 32
    ∧ win0_0.index t (0 : Fin 2) = t.val % 32 ∧ win0_0.index t (1 : Fin 2) = 0
    ∧ win0_1.index t (0 : Fin 2) = 0 ∧ win0_1.index t (1 : Fin 2) = t.val / 32
    ∧ win0_2.index t (0 : Fin 2) = 0 ∧ win0_2.index t (1 : Fin 2) = 0
    ∧ win0_3.index t (0 : Fin 2) = 0 ∧ win0_3.index t (1 : Fin 2) = t.val / 32
    ∧ win0_4.index t (0 : Fin 2) = 0 ∧ win0_4.index t (1 : Fin 2) = t.val / 32 :=
  (by decide +kernel : ∀ t : Fin grid0.N, _)

/-- The activations' tile at point t: rows of row block t mod 32. -/
theorem xblk_apply (c : Dev nD) (t : Fin cfg0.N) (p : Fin 256) (h : Fin 4096) (P : Fin 8192)
    (hP : P.val = t.val % 32 * 256 + p.val) :
    (iblk m c 0 t : Vec Ideal S256x4096 .f32) (ix2 p h) = (V m c main_v17 : S8192x4096.Idx → EReal) (ix2 P h) := by
  obtain ⟨-, -, e0, e1, -⟩ := idx_facts t
  unfold iblk
  rw [View.read_apply]
  show (V m c main_v17 : S8192x4096.Idx → EReal) _ = (V m c main_v17 : S8192x4096.Idx → EReal) _
  refine congrArg (V m c main_v17 : S8192x4096.Idx → EReal) (funext fun a => Fin.ext ?_)
  match a with
  | ⟨0, _⟩ => show win0_0.index t (0 : Fin 2) * 256 + 1 * p.val = P.val; omega
  | ⟨1, _⟩ => show win0_0.index t (1 : Fin 2) * 4096 + 1 * h.val = h.val; omega

/-- The weights' tile at point t: columns of column block t / 32. -/
theorem wblk_apply (c : Dev nD) (t : Fin cfg0.N) (h : Fin 4096) (q : Fin 1536) (J : Fin 6144)
    (hJ : J.val = t.val / 32 * 1536 + q.val) :
    (iblk m c 1 t : Vec Ideal S4096x1536 .bf16) (ix2 h q) = (V m c main_v14 : S4096x6144.Idx → EReal) (ix2 h J) := by
  obtain ⟨-, -, -, -, e0, e1, -⟩ := idx_facts t
  unfold iblk
  rw [View.read_apply]
  show (V m c main_v14 : S4096x6144.Idx → EReal) _ = (V m c main_v14 : S4096x6144.Idx → EReal) _
  refine congrArg (V m c main_v14 : S4096x6144.Idx → EReal) (funext fun a => Fin.ext ?_)
  match a with
  | ⟨0, _⟩ => show win0_1.index t (0 : Fin 2) * 4096 + 1 * h.val = h.val; omega
  | ⟨1, _⟩ => show win0_1.index t (1 : Fin 2) * 1536 + 1 * q.val = J.val; omega

/-- The down-projections' tile at every point: the whole array. -/
theorem ablk_apply (c : Dev nD) (t : Fin cfg0.N) (h : Fin 4096) (r : Fin 48) :
    (iblk m c 2 t : Vec Ideal S4096x48 .bf16) (ix2 h r) = (V m c main_v15 : S4096x48.Idx → EReal) (ix2 h r) := by
  obtain ⟨-, -, -, -, -, -, e0, e1, -⟩ := idx_facts t
  unfold iblk
  rw [View.read_apply]
  show (V m c main_v15 : S4096x48.Idx → EReal) _ = (V m c main_v15 : S4096x48.Idx → EReal) _
  refine congrArg (V m c main_v15 : S4096x48.Idx → EReal) (funext fun a => Fin.ext ?_)
  match a with
  | ⟨0, _⟩ => show win0_2.index t (0 : Fin 2) * 4096 + 1 * h.val = h.val; omega
  | ⟨1, _⟩ => show win0_2.index t (1 : Fin 2) * 48 + 1 * r.val = r.val; omega

/-- The up-projection's tile at point t: columns of column block t / 32. -/
theorem bblk_apply (c : Dev nD) (t : Fin cfg0.N) (r : Fin 48) (q : Fin 1536) (J : Fin 6144)
    (hJ : J.val = t.val / 32 * 1536 + q.val) :
    (iblk m c 3 t : Vec Ideal S48x1536 .bf16) (ix2 r q) = (V m c main_v16 : S48x6144.Idx → EReal) (ix2 r J) := by
  obtain ⟨-, -, -, -, -, -, -, -, e0, e1, -⟩ := idx_facts t
  unfold iblk
  rw [View.read_apply]
  show (V m c main_v16 : S48x6144.Idx → EReal) _ = (V m c main_v16 : S48x6144.Idx → EReal) _
  refine congrArg (V m c main_v16 : S48x6144.Idx → EReal) (funext fun a => Fin.ext ?_)
  match a with
  | ⟨0, _⟩ => show win0_3.index t (0 : Fin 2) * 48 + 1 * r.val = r.val; omega
  | ⟨1, _⟩ => show win0_3.index t (1 : Fin 2) * 1536 + 1 * q.val = J.val; omega

/-- The bias tile at point t: columns of column block t / 32 of the one row. -/
theorem biasblk_apply (c : Dev nD) (t : Fin cfg0.N) (q : Fin 1536) (J : Fin 6144)
    (hJ : J.val = t.val / 32 * 1536 + q.val) :
    (iblk m c 4 t : Vec Ideal S1x1536 .f32) (ix2 (0 : Fin 1) q) = (V m c main_v13 : S1x6144.Idx → EReal) (ix2 (0 : Fin 1) J) := by
  obtain ⟨-, -, -, -, -, -, -, -, -, -, e0, e1⟩ := idx_facts t
  unfold iblk
  rw [View.read_apply]
  show (V m c main_v13 : S1x6144.Idx → EReal) _ = (V m c main_v13 : S1x6144.Idx → EReal) _
  refine congrArg (V m c main_v13 : S1x6144.Idx → EReal) (funext fun a => Fin.ext ?_)
  match a with
  | ⟨0, _⟩ => show win0_4.index t (0 : Fin 2) * 1 + 1 * 0 = 0; omega
  | ⟨1, _⟩ => show win0_4.index t (1 : Fin 2) * 1536 + 1 * q.val = J.val; omega

/-- The fused formula of the five arrays the region is entered with, as one function of the output array's index. -/
abbrev fusedArr (c : Dev nD) : S8192x6144.Idx → EReal := fun i =>
  Cert.Spec.fused (V m c main_v17 : S8192x4096.Idx → EReal) (V m c main_v14 : S4096x6144.Idx → EReal)
    (V m c main_v15 : S4096x48.Idx → EReal) (V m c main_v16 : S48x6144.Idx → EReal)
    (V m c main_v13 : S1x6144.Idx → EReal) (i 0) (i 1)

/-- What grid point t writes back is its block of the fused formula. -/
theorem flushed_eq (c : Dev nD) (t : Fin cfg0.N) :
    (dats m 0 c).flushed 5 t = ((cfg0.win 5).blk t).view.read (Elt Ideal) (fusedArr m c) := by
  show (cfg0.win 5).cut (grid0.coords t) ((dats m 0 c).after 5 t) = _
  rw [after0_5]
  unfold outBlk
  rw [View.canon_unit_zero hz]
  simp only [View.ld_unit_zero (S := S256x4096) hz, View.ld_unit_zero (S := S4096x1536) hz,
    View.ld_unit_zero (S := S4096x48) hz, View.ld_unit_zero (S := S48x1536) hz, View.ld_unit_zero (S := S1x1536) hz]
  funext y
  have hy0 : (y 0).val < 256 := (y 0).isLt
  have hy1 : (y 1).val < 1536 := (y 1).isLt
  have ht : t.val < 128 := lt_of_lt_of_eq t.isLt N_0
  obtain ⟨e0, e1, -⟩ := idx_facts t
  have hidx : (win0 5).xinj (grid0.coords t) y = (ix2 (⟨(y 0).val, hy0⟩ : Fin 256) (⟨(y 1).val, hy1⟩ : Fin 1536) : S256x1536.Idx) :=
    funext fun a => by match a with | ⟨0, _⟩ => rfl | ⟨1, _⟩ => rfl
  have hemb : ((cfg0.win 5).blk t).view.emb y
      = (ix2 (⟨t.val % 32 * 256 + (y 0).val, by omega⟩ : Fin 8192) (⟨t.val / 32 * 1536 + (y 1).val, by omega⟩ : Fin 6144) : S8192x6144.Idx) :=
    funext fun a => Fin.ext (by
      match a with
      | ⟨0, _⟩ => show win0_5.index t (0 : Fin 2) * 256 + 1 * (y 0).val = t.val % 32 * 256 + (y 0).val; omega
      | ⟨1, _⟩ => show win0_5.index t (1 : Fin 2) * 1536 + 1 * (y 1).val = t.val / 32 * 1536 + (y 1).val; omega)
  rw [View.read_apply]
  show k0_pay1 (F := Ideal) (iblk m c 0 t) (iblk m c 1 t) (iblk m c 2 t) (iblk m c 3 t) (iblk m c 4 t) ((win0 5).xinj (grid0.coords t) y)
    = fusedArr m c (((cfg0.win 5).blk t).view.emb y)
  refine (congrArg (k0_pay1 (F := Ideal) (iblk m c 0 t) (iblk m c 1 t) (iblk m c 2 t) (iblk m c 3 t) (iblk m c 4 t)) hidx).trans
    (Eq.trans ?_ (congrArg (fusedArr m c) hemb).symm)
  exact tile_entry (V m c main_v17 : S8192x4096.Idx → EReal) (V m c main_v14 : S4096x6144.Idx → EReal)
    (V m c main_v15 : S4096x48.Idx → EReal) (V m c main_v16 : S48x6144.Idx → EReal) (V m c main_v13 : S1x6144.Idx → EReal)
    (iblk m c 0 t) (iblk m c 1 t) (iblk m c 2 t) (iblk m c 3 t) (iblk m c 4 t)
    ⟨(y 0).val, hy0⟩ ⟨(y 1).val, hy1⟩ ⟨t.val % 32 * 256 + (y 0).val, by omega⟩ ⟨t.val / 32 * 1536 + (y 1).val, by omega⟩
    (fun h => xblk_apply m c t ⟨(y 0).val, hy0⟩ h ⟨t.val % 32 * 256 + (y 0).val, by omega⟩ rfl)
    (fun h => wblk_apply m c t h ⟨(y 1).val, hy1⟩ ⟨t.val / 32 * 1536 + (y 1).val, by omega⟩ rfl)
    (fun h r => ablk_apply m c t h r)
    (fun r => bblk_apply m c t r ⟨(y 1).val, hy1⟩ ⟨t.val / 32 * 1536 + (y 1).val, by omega⟩ rfl)
    (biasblk_apply m c t ⟨(y 1).val, hy1⟩ ⟨t.val / 32 * 1536 + (y 1).val, by omega⟩ rfl)

/-- An entry of the output array is in point t's block when, on each axis, it lies in the block's range. -/
theorem mem_blk (t : Fin cfg0.N) (i : S8192x6144.Idx) :
    i ∈ ((cfg0.win 5).blk t).view.set ↔ ∀ a : Fin 2, win0_5.index t a * S256x1536.size a ≤ (i a).val ∧ (i a).val < win0_5.index t a * S256x1536.size a + S256x1536.size a := by
  show i ∈ ((View.whole main_v18).slice (win0_5.rect t)).set ↔ _
  rw [View.set_slice_whole, Rect.mem_set_unit]
  exact Iff.rfl

/-- Every entry of the output array is in some point's block: entry (p, j) in that of point (j / 1536) · 32 + p / 256. -/
theorem covered (i : S8192x6144.Idx) :
    ∃ t : Fin cfg0.N, (cfg0.win 5).flush t = true ∧ i ∈ ((cfg0.win 5).blk t).view.set := by
  have hi0 : (i 0).val < 8192 := (i 0).isLt
  have hi1 : (i 1).val < 6144 := (i 1).isLt
  have hN : cfg0.N = 128 := N_0
  have hlt : (i 1).val / 1536 * 32 + (i 0).val / 256 < cfg0.N := by rw [hN]; omega
  obtain ⟨e0, e1, -⟩ := idx_facts ⟨(i 1).val / 1536 * 32 + (i 0).val / 256, hlt⟩
  refine ⟨⟨(i 1).val / 1536 * 32 + (i 0).val / 256, hlt⟩, flush0_5 _, ?_⟩
  rw [mem_blk]
  intro a
  match a with
  | ⟨0, _⟩ =>
    show win0_5.index ⟨(i 1).val / 1536 * 32 + (i 0).val / 256, hlt⟩ (0 : Fin 2) * 256 ≤ (i 0).val
      ∧ (i 0).val < win0_5.index ⟨(i 1).val / 1536 * 32 + (i 0).val / 256, hlt⟩ (0 : Fin 2) * 256 + 256
    rw [e0]
    show ((i 1).val / 1536 * 32 + (i 0).val / 256) % 32 * 256 ≤ (i 0).val
      ∧ (i 0).val < ((i 1).val / 1536 * 32 + (i 0).val / 256) % 32 * 256 + 256
    omega
  | ⟨1, _⟩ =>
    show win0_5.index ⟨(i 1).val / 1536 * 32 + (i 0).val / 256, hlt⟩ (1 : Fin 2) * 1536 ≤ (i 1).val
      ∧ (i 1).val < win0_5.index ⟨(i 1).val / 1536 * 32 + (i 0).val / 256, hlt⟩ (1 : Fin 2) * 1536 + 1536
    rw [e1]
    show ((i 1).val / 1536 * 32 + (i 0).val / 256) / 32 * 1536 ≤ (i 1).val
      ∧ (i 1).val < ((i 1).val / 1536 * 32 + (i 0).val / 256) / 32 * 1536 + 1536
    omega

/-- So the output array ends holding the fused formula. -/
theorem final (c : Dev nD) : (dats m 0 c).arrAt 5 cfg0.N = fusedArr m c :=
  (dats m 0 c).arrAt_eq_of_cover 5 (fusedArr m c) (fun t _ => flushed_eq m c t) covered

/-- Entry (p, j) of the output array after the region is the fused formula at row p and column j. -/
theorem out_eq (c : Dev nD) (p : Fin 8192) (j : Fin 6144) :
    ((dats m 0 c).arrAt 5 cfg0.N : S8192x6144.Idx → EReal) (ix2 p j)
      = Cert.Spec.fused (V m c main_v17 : S8192x4096.Idx → EReal) (V m c main_v14 : S4096x6144.Idx → EReal)
          (V m c main_v15 : S4096x48.Idx → EReal) (V m c main_v16 : S48x6144.Idx → EReal)
          (V m c main_v13 : S1x6144.Idx → EReal) p j :=
  congrFun (final m c) (ix2 p j)

end Cert.KernelIdeal.HandValue

end
-- ==== Proof.KIHost.lean ====
/- The host lines around the region, read entry by entry at the ideal instance.  Before the region: the activations
   flattened to 8192 rows; the three weight matrices transposed and laid side by side; the three LoRA down-projections
   side by side; the LoRA up-projections on the diagonal of a 48 × 6144 matrix that is zero elsewhere; the three
   biases in one row.  (The narrowing to bfloat16 changes nothing over the extended reals.)  After the region: the
   output unflattened and cut into its query, key and value columns. -/
import proofs.«116329_j61770219651785_1_alg».proof.Proof.KIData
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-! ## Small readings of layout operations at explicit coordinates -/

section Helpers
variable {α : Type}

/-- Matrices laid side by side (joined along the columns), read at row `a` and a column that falls `b` places into
    piece `k`: that piece at `(a, b)`. -/
theorem cat_cols_apply {r N : Nat} (xs : List ((s : Shape) × (s.Idx → α)))
    (h : Shape.Concatenates (xs.map (·.1)) ⟨2, ![r, N]⟩ 1) (k : Nat) (n : Nat)
    (x : (⟨2, ![r, n]⟩ : Shape).Idx → α) (hxk : xs[k]? = some ⟨⟨2, ![r, n]⟩, x⟩) (pre : Nat)
    (hpre : (((xs.take k).map (·.1)).map fun s => if h : s.rank = (⟨2, ![r, N]⟩ : Shape).rank then s.size ((1 : Fin 2).cast h.symm) else 0).sum = pre)
    (a : Fin r) (b : Fin n) (j1 : Fin N) (hj : pre + b.val = j1.val) :
    concatenate ⟨2, ![r, N]⟩ 1 xs h (ix2 a j1) = x (ix2 a b) := by
  obtain ⟨hk, hxk'⟩ := List.getElem?_eq_some_iff.1 hxk
  exact concatenate_apply_piece (1 : Fin 2) xs h (ix2 a j1) k hk ⟨2, ![r, n]⟩ x hxk' rfl pre hpre (ix2 a b)
    (fun d => match d with | ⟨0, _⟩ => fun _ => rfl | ⟨1, _⟩ => fun hne => absurd rfl hne) hj

/-- Vectors laid end to end, read at a position that falls `b` places into piece `k`: that piece at `b`. -/
theorem cat_vec_apply {N : Nat} (xs : List ((s : Shape) × (s.Idx → α)))
    (h : Shape.Concatenates (xs.map (·.1)) ⟨1, ![N]⟩ 0) (k : Nat) (n : Nat)
    (x : (⟨1, ![n]⟩ : Shape).Idx → α) (hxk : xs[k]? = some ⟨⟨1, ![n]⟩, x⟩) (pre : Nat)
    (hpre : (((xs.take k).map (·.1)).map fun s => if h : s.rank = (⟨1, ![N]⟩ : Shape).rank then s.size ((0 : Fin 1).cast h.symm) else 0).sum = pre)
    (b : Fin n) (j0 : Fin N) (hj : pre + b.val = j0.val) :
    concatenate ⟨1, ![N]⟩ 0 xs h (ix1 j0) = x (ix1 b) := by
  obtain ⟨hk, hxk'⟩ := List.getElem?_eq_some_iff.1 hxk
  exact concatenate_apply_piece (0 : Fin 1) xs h (ix1 j0) k hk ⟨1, ![n]⟩ x hxk' rfl pre hpre (ix1 b)
    (fun d => match d with | ⟨0, _⟩ => fun hne => absurd rfl hne) hj

end Helpers

/-! ## The arrays the region finds, as terms of the argument arrays -/

/-- The activations as the region finds them: the 4 × 2048 × 4096 argument with its first two axes flattened. -/
theorem X_arr : (V m c main_v17 : S8192x4096.Idx → EReal)
    = shapeCast S8192x4096 (m ((c : Thread nD τ).loc main_arg0) : S4x2048x4096.Idx → EReal) shapeCasts_S4x2048x4096_S8192x4096 := by
  show StableHlo.after hostOps0 (fun b => m (c, b)) (Proc.devRef .tc main_v17) = _
  after_results
  rfl

/-- The weights as the region finds them: the three transposed weight matrices side by side (narrowed, which changes nothing here). -/
theorem W_arr : (V m c main_v14 : S4096x6144.Idx → EReal)
    = truncf (F := Ideal) (φ := .f32) .bf16 (concatenate S4096x6144 1
        [⟨S4096x4096, transpose S4096x4096 [1, 0] (m ((c : Thread nD τ).loc main_arg1) : S4096x4096.Idx → EReal) transposes_S4096x4096_S4096x4096_1_0⟩,
         ⟨S4096x1024, transpose S4096x1024 [1, 0] (m ((c : Thread nD τ).loc main_arg2) : S1024x4096.Idx → EReal) transposes_S1024x4096_S4096x1024_1_0⟩,
         ⟨S4096x1024, transpose S4096x1024 [1, 0] (m ((c : Thread nD τ).loc main_arg3) : S1024x4096.Idx → EReal) transposes_S1024x4096_S4096x1024_1_0⟩]
        concatenates_S4096x4096_S4096x1024_S4096x1024_S4096x6144_d1) bitsLt_bf16_f32 := by
  show StableHlo.after hostOps0 (fun b => m (c, b)) (Proc.devRef .tc main_v14) = _
  after_results
  rfl

/-- The LoRA down-projections as the region finds them: the three matrices side by side. -/
theorem A_arr : (V m c main_v15 : S4096x48.Idx → EReal)
    = truncf (F := Ideal) (φ := .f32) .bf16 (concatenate S4096x48 1
        [⟨S4096x16, (m ((c : Thread nD τ).loc main_arg7) : S4096x16.Idx → EReal)⟩,
         ⟨S4096x16, (m ((c : Thread nD τ).loc main_arg9) : S4096x16.Idx → EReal)⟩,
         ⟨S4096x16, (m ((c : Thread nD τ).loc main_arg11) : S4096x16.Idx → EReal)⟩]
        concatenates_S4096x16_S4096x16_S4096x16_S4096x48_d1) bitsLt_bf16_f32 := by
  show StableHlo.after hostOps0 (fun b => m (c, b)) (Proc.devRef .tc main_v15) = _
  after_results
  rfl

/-- The bias row as the region finds it: the three bias vectors end to end, as the one row of a 1 × 6144 matrix. -/
theorem bias_arr : (V m c main_v13 : S1x6144.Idx → EReal)
    = broadcastInDim S1x6144 ![1] bcast_S6144_S1x6144_1 (concatenate S6144 0
        [⟨S4096, (m ((c : Thread nD τ).loc main_arg4) : S4096.Idx → EReal)⟩,
         ⟨S1024, (m ((c : Thread nD τ).loc main_arg5) : S1024.Idx → EReal)⟩,
         ⟨S1024, (m ((c : Thread nD τ).loc main_arg6) : S1024.Idx → EReal)⟩]
        concatenates_S4096_S1024_S1024_S6144_d0) := by
  show StableHlo.after hostOps0 (fun b => m (c, b)) (Proc.devRef .tc main_v13) = _
  after_results
  rfl

/-! ## Before the region -/

theorem X_eq (b : Fin 4) (s : Fin 2048) (h : Fin 4096) :
    (V m c main_v17 : S8192x4096.Idx → EReal) (ix2 (⟨b.val * 2048 + s.val, by omega⟩ : Fin 8192) h) = (m ((c : Thread nD τ).loc main_arg0) : S4x2048x4096.Idx → EReal) (ix3 b s h) := by
  refine (congrFun (X_arr m c) _).trans ?_
  exact shapeCast_apply _ _ _ (ix3 b s h) (by rw [Shape.rowMajor_val_two, Shape.rowMajor_val_three]; rfl)

theorem W_q (h : Fin 4096) (o : Fin 4096) :
    (V m c main_v14 : S4096x6144.Idx → EReal) (ix2 h (⟨o.val, by omega⟩ : Fin 6144)) = (m ((c : Thread nD τ).loc main_arg1) : S4096x4096.Idx → EReal) (ix2 o h) := by
  refine (congrFun (W_arr m c) _).trans ?_
  rw [truncf_apply]
  refine (cat_cols_apply _ _ 0 4096 _ rfl 0 rfl h o (⟨o.val, by omega⟩ : Fin 6144) (Nat.zero_add _)).trans ?_
  exact transpose_ix2_apply _ _ h o
theorem W_k (h : Fin 4096) (o : Fin 1024) :
    (V m c main_v14 : S4096x6144.Idx → EReal) (ix2 h (⟨4096 + o.val, by omega⟩ : Fin 6144)) = (m ((c : Thread nD τ).loc main_arg2) : S1024x4096.Idx → EReal) (ix2 o h) := by
  refine (congrFun (W_arr m c) _).trans ?_
  rw [truncf_apply]
  refine (cat_cols_apply _ _ 1 1024 _ rfl 4096 rfl h o _ rfl).trans ?_
  exact transpose_ix2_apply _ _ h o
theorem W_v (h : Fin 4096) (o : Fin 1024) :
    (V m c main_v14 : S4096x6144.Idx → EReal) (ix2 h (⟨5120 + o.val, by omega⟩ : Fin 6144)) = (m ((c : Thread nD τ).loc main_arg3) : S1024x4096.Idx → EReal) (ix2 o h) := by
  refine (congrFun (W_arr m c) _).trans ?_
  rw [truncf_apply]
  refine (cat_cols_apply _ _ 2 1024 _ rfl 5120 rfl h o _ rfl).trans ?_
  exact transpose_ix2_apply _ _ h o

theorem A_q (h : Fin 4096) (r : Fin 16) :
    (V m c main_v15 : S4096x48.Idx → EReal) (ix2 h (⟨r.val, by omega⟩ : Fin 48)) = (m ((c : Thread nD τ).loc main_arg7) : S4096x16.Idx → EReal) (ix2 h r) := by
  refine (congrFun (A_arr m c) _).trans ?_
  rw [truncf_apply]
  exact cat_cols_apply _ _ 0 16 _ rfl 0 rfl h r (⟨r.val, by omega⟩ : Fin 48) (Nat.zero_add _)
theorem A_k (h : Fin 4096) (r : Fin 16) :
    (V m c main_v15 : S4096x48.Idx → EReal) (ix2 h (⟨16 + r.val, by omega⟩ : Fin 48)) = (m ((c : Thread nD τ).loc main_arg9) : S4096x16.Idx → EReal) (ix2 h r) := by
  refine (congrFun (A_arr m c) _).trans ?_
  rw [truncf_apply]
  exact cat_cols_apply _ _ 1 16 _ rfl 16 rfl h r _ rfl
theorem A_v (h : Fin 4096) (r : Fin 16) :
    (V m c main_v15 : S4096x48.Idx → EReal) (ix2 h (⟨32 + r.val, by omega⟩ : Fin 48)) = (m ((c : Thread nD τ).loc main_arg11) : S4096x16.Idx → EReal) (ix2 h r) := by
  refine (congrFun (A_arr m c) _).trans ?_
  rw [truncf_apply]
  exact cat_cols_apply _ _ 2 16 _ rfl 32 rfl h r _ rfl

theorem bias_q (o : Fin 4096) :
    (V m c main_v13 : S1x6144.Idx → EReal) (ix2 (0 : Fin 1) (⟨o.val, by omega⟩ : Fin 6144)) = (m ((c : Thread nD τ).loc main_arg4) : S4096.Idx → EReal) (ix1 o) := by
  refine (congrFun (bias_arr m c) _).trans ?_
  refine (broadcastInDim_apply _ _ _ _ (ix1 (⟨o.val, by omega⟩ : Fin 6144)) (fun a => match a with | ⟨0, _⟩ => rfl)).trans ?_
  exact cat_vec_apply _ _ 0 4096 _ rfl 0 rfl o (⟨o.val, by omega⟩ : Fin 6144) (Nat.zero_add _)
theorem bias_k (o : Fin 1024) :
    (V m c main_v13 : S1x6144.Idx → EReal) (ix2 (0 : Fin 1) (⟨4096 + o.val, by omega⟩ : Fin 6144)) = (m ((c : Thread nD τ).loc main_arg5) : S1024.Idx → EReal) (ix1 o) := by
  refine (congrFun (bias_arr m c) _).trans ?_
  refine (broadcastInDim_apply _ _ _ _ (ix1 (⟨4096 + o.val, by omega⟩ : Fin 6144)) (fun a => match a with | ⟨0, _⟩ => rfl)).trans ?_
  exact cat_vec_apply _ _ 1 1024 _ rfl 4096 rfl o _ rfl
theorem bias_v (o : Fin 1024) :
    (V m c main_v13 : S1x6144.Idx → EReal) (ix2 (0 : Fin 1) (⟨5120 + o.val, by omega⟩ : Fin 6144)) = (m ((c : Thread nD τ).loc main_arg6) : S1024.Idx → EReal) (ix1 o) := by
  refine (congrFun (bias_arr m c) _).trans ?_
  refine (broadcastInDim_apply _ _ _ _ (ix1 (⟨5120 + o.val, by omega⟩ : Fin 6144)) (fun a => match a with | ⟨0, _⟩ => rfl)).trans ?_
  exact cat_vec_apply _ _ 2 1024 _ rfl 5120 rfl o _ rfl

/-! ## After the region -/

/-- The pipeline's output array, as the host lines after the region find it. -/
theorem out_arr : Pipeline.withArrays (cfgs 0).spec c (V0 m c) (fun w => (dats m 0 c).arrAt w (cfgs 0).N) (Proc.devRef .tc main_v18)
    = (dats m 0 c).arrAt 5 cfg0.N :=
  Pipeline.withArrays_arr spec0 launch0.win.arr_inj c _ _ 5

/-- The query result: the output unflattened, columns 0 to 4095. -/
theorem tail_arr_q : (Pipeline.afterTail₀ cfgs (dats m) 0 (V0 m) [hostOps1] c main_v20 : S4x2048x4096.Idx → EReal)
    = extractStridedSlice S4x2048x4096 ![0, 0, 0]
        (shapeCast S4x2048x6144 ((dats m 0 c).arrAt 5 cfg0.N : S8192x6144.Idx → EReal) shapeCasts_S8192x6144_S4x2048x6144)
        slices_S4x2048x6144_S4x2048x4096_0_0_0 := by
  unfold Pipeline.afterTail₀
  show StableHlo.after hostOps1 _ (Proc.devRef .tc main_v20) = _
  after_results
  rw [out_arr m c]
  rfl

/-- The key result: the output unflattened, columns 4096 to 5119. -/
theorem tail_arr_k : (Pipeline.afterTail₀ cfgs (dats m) 0 (V0 m) [hostOps1] c main_v21 : S4x2048x1024.Idx → EReal)
    = extractStridedSlice S4x2048x1024 ![0, 0, 4096]
        (shapeCast S4x2048x6144 ((dats m 0 c).arrAt 5 cfg0.N : S8192x6144.Idx → EReal) shapeCasts_S8192x6144_S4x2048x6144)
        slices_S4x2048x6144_S4x2048x1024_0_0_4096 := by
  unfold Pipeline.afterTail₀
  show StableHlo.after hostOps1 _ (Proc.devRef .tc main_v21) = _
  after_results
  rw [out_arr m c]
  rfl

/-- The value result: the output unflattened, columns 5120 to 6143. -/
theorem tail_arr_v : (Pipeline.afterTail₀ cfgs (dats m) 0 (V0 m) [hostOps1] c main_v22 : S4x2048x1024.Idx → EReal)
    = extractStridedSlice S4x2048x1024 ![0, 0, 5120]
        (shapeCast S4x2048x6144 ((dats m 0 c).arrAt 5 cfg0.N : S8192x6144.Idx → EReal) shapeCasts_S8192x6144_S4x2048x6144)
        slices_S4x2048x6144_S4x2048x1024_0_0_5120 := by
  unfold Pipeline.afterTail₀
  show StableHlo.after hostOps1 _ (Proc.devRef .tc main_v22) = _
  after_results
  rw [out_arr m c]
  rfl

/-- The flat output unflattened: entry `(b, s, o)` of the 4 × 2048 × 6144 view is row `b · 2048 + s`, column `o`. -/
theorem unflatten_apply (Y : S8192x6144.Idx → EReal) (b : Fin 4) (s : Fin 2048) (o : Fin 6144) :
    shapeCast S4x2048x6144 Y shapeCasts_S8192x6144_S4x2048x6144 (ix3 b s o)
      = Y (ix2 (⟨b.val * 2048 + s.val, by omega⟩ : Fin 8192) o) :=
  shapeCast_apply _ _ _ (ix2 (⟨b.val * 2048 + s.val, by omega⟩ : Fin 8192) o)
    (by rw [Shape.rowMajor_val_two, Shape.rowMajor_val_three]; rfl)

theorem tail_q (b : Fin 4) (s : Fin 2048) (o : Fin 4096) :
    (Pipeline.afterTail₀ cfgs (dats m) 0 (V0 m) [hostOps1] c main_v20 : S4x2048x4096.Idx → EReal) (ix3 b s o)
      = ((dats m 0 c).arrAt 5 cfg0.N : S8192x6144.Idx → EReal) (ix2 (⟨b.val * 2048 + s.val, by omega⟩ : Fin 8192) (⟨o.val, by omega⟩ : Fin 6144)) := by
  refine (congrFun (tail_arr_q m c) _).trans ?_
  refine (extractStridedSlice_apply _ _ _ _ (ix3 b s (⟨o.val, by omega⟩ : Fin 6144)) (fun a => match a with
    | ⟨0, _⟩ => by show b.val = 0 + b.val; omega
    | ⟨1, _⟩ => by show s.val = 0 + s.val; omega
    | ⟨2, _⟩ => by show o.val = 0 + o.val; omega)).trans ?_
  exact unflatten_apply _ b s _
theorem tail_k (b : Fin 4) (s : Fin 2048) (o : Fin 1024) :
    (Pipeline.afterTail₀ cfgs (dats m) 0 (V0 m) [hostOps1] c main_v21 : S4x2048x1024.Idx → EReal) (ix3 b s o)
      = ((dats m 0 c).arrAt 5 cfg0.N : S8192x6144.Idx → EReal) (ix2 (⟨b.val * 2048 + s.val, by omega⟩ : Fin 8192) (⟨4096 + o.val, by omega⟩ : Fin 6144)) := by
  refine (congrFun (tail_arr_k m c) _).trans ?_
  refine (extractStridedSlice_apply _ _ _ _ (ix3 b s (⟨4096 + o.val, by omega⟩ : Fin 6144)) (fun a => match a with
    | ⟨0, _⟩ => by show b.val = 0 + b.val; omega
    | ⟨1, _⟩ => by show s.val = 0 + s.val; omega
    | ⟨2, _⟩ => by show 4096 + o.val = 4096 + o.val; rfl)).trans ?_
  exact unflatten_apply _ b s _
theorem tail_v (b : Fin 4) (s : Fin 2048) (o : Fin 1024) :
    (Pipeline.afterTail₀ cfgs (dats m) 0 (V0 m) [hostOps1] c main_v22 : S4x2048x1024.Idx → EReal) (ix3 b s o)
      = ((dats m 0 c).arrAt 5 cfg0.N : S8192x6144.Idx → EReal) (ix2 (⟨b.val * 2048 + s.val, by omega⟩ : Fin 8192) (⟨5120 + o.val, by omega⟩ : Fin 6144)) := by
  refine (congrFun (tail_arr_v m c) _).trans ?_
  refine (extractStridedSlice_apply _ _ _ _ (ix3 b s (⟨5120 + o.val, by omega⟩ : Fin 6144)) (fun a => match a with
    | ⟨0, _⟩ => by show b.val = 0 + b.val; omega
    | ⟨1, _⟩ => by show s.val = 0 + s.val; omega
    | ⟨2, _⟩ => by show 5120 + o.val = 5120 + o.val; rfl)).trans ?_
  exact unflatten_apply _ b s _

end Cert.KernelIdeal.HandValue

end
-- ==== Proof.KIDiag.lean ====
/- The block-diagonal LoRA up-projection the host lines build, read entry by entry at the ideal instance: row block k
   (rows 16k … 16k+15) carries projection k's up-projection in that projection's own columns and zero in the others. -/
import proofs.«116329_j61770219651785_1_alg».proof.Proof.KIData
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

/-! ## Three pieces side by side, three bands stacked

A 48×6144 array made of three 16-row bands, each band three pieces side by side of widths 4096, 1024 and 1024, read at
an entry: the band is the one whose rows hold the row index, the piece the one whose columns hold the column index. -/

section Blocks
variable {α : Type}

/-- Entry `(r, J)` of three pieces laid side by side, for `J` in the first piece's columns, `J < 4096`. -/
theorem row3_fst (a0 : S16x4096.Idx → α) (a1 a2 : S16x1024.Idx → α) (r : Fin 16) (J : Fin 6144) (o : Fin 4096)
    (h : J.val = o.val) :
    concatenate S16x6144 1 [⟨S16x4096, a0⟩, ⟨S16x1024, a1⟩, ⟨S16x1024, a2⟩]
      concatenates_S16x4096_S16x1024_S16x1024_S16x6144_d1 (ix2 r J) = a0 (ix2 r o) :=
  concatenate_apply_piece 1 _ _ (ix2 r J) 0 (by show (0 : ℕ) < 3; omega) S16x4096 a0 rfl rfl 0 rfl (ix2 r o)
    (fun b hb => by match b with | ⟨0, _⟩ => rfl | ⟨1, _⟩ => exact absurd rfl hb) (by show 0 + o.val = J.val; omega)

/-- The same for `J` in the second piece's columns, `4096 ≤ J < 5120`. -/
theorem row3_snd (a0 : S16x4096.Idx → α) (a1 a2 : S16x1024.Idx → α) (r : Fin 16) (J : Fin 6144) (o : Fin 1024)
    (h : J.val = 4096 + o.val) :
    concatenate S16x6144 1 [⟨S16x4096, a0⟩, ⟨S16x1024, a1⟩, ⟨S16x1024, a2⟩]
      concatenates_S16x4096_S16x1024_S16x1024_S16x6144_d1 (ix2 r J) = a1 (ix2 r o) :=
  concatenate_apply_piece 1 _ _ (ix2 r J) 1 (by show (1 : ℕ) < 3; omega) S16x1024 a1 rfl rfl 4096 rfl (ix2 r o)
    (fun b hb => by match b with | ⟨0, _⟩ => rfl | ⟨1, _⟩ => exact absurd rfl hb) (by show 4096 + o.val = J.val; omega)

/-- The same for `J` in the third piece's columns, `5120 ≤ J`. -/
theorem row3_thd (a0 : S16x4096.Idx → α) (a1 a2 : S16x1024.Idx → α) (r : Fin 16) (J : Fin 6144) (o : Fin 1024)
    (h : J.val = 5120 + o.val) :
    concatenate S16x6144 1 [⟨S16x4096, a0⟩, ⟨S16x1024, a1⟩, ⟨S16x1024, a2⟩]
      concatenates_S16x4096_S16x1024_S16x1024_S16x6144_d1 (ix2 r J) = a2 (ix2 r o) :=
  concatenate_apply_piece 1 _ _ (ix2 r J) 2 (by show (2 : ℕ) < 3; omega) S16x1024 a2 rfl rfl 5120 rfl (ix2 r o)
    (fun b hb => by match b with | ⟨0, _⟩ => rfl | ⟨1, _⟩ => exact absurd rfl hb) (by show 5120 + o.val = J.val; omega)

/-- Entry `(R, J)` of three 16-row bands stacked, for `R` in the first band, `R < 16`. -/
theorem col3_fst (x0 x1 x2 : S16x6144.Idx → α) (R : Fin 48) (J : Fin 6144) (r : Fin 16) (h : R.val = r.val) :
    concatenate S48x6144 0 [⟨S16x6144, x0⟩, ⟨S16x6144, x1⟩, ⟨S16x6144, x2⟩]
      concatenates_S16x6144_S16x6144_S16x6144_S48x6144_d0 (ix2 R J) = x0 (ix2 r J) :=
  concatenate_apply_piece 0 _ _ (ix2 R J) 0 (by show (0 : ℕ) < 3; omega) S16x6144 x0 rfl rfl 0 rfl (ix2 r J)
    (fun b hb => by match b with | ⟨0, _⟩ => exact absurd rfl hb | ⟨1, _⟩ => rfl) (by show 0 + r.val = R.val; omega)

/-- The same for `R` in the second band, `16 ≤ R < 32`. -/
theorem col3_snd (x0 x1 x2 : S16x6144.Idx → α) (R : Fin 48) (J : Fin 6144) (r : Fin 16) (h : R.val = 16 + r.val) :
    concatenate S48x6144 0 [⟨S16x6144, x0⟩, ⟨S16x6144, x1⟩, ⟨S16x6144, x2⟩]
      concatenates_S16x6144_S16x6144_S16x6144_S48x6144_d0 (ix2 R J) = x1 (ix2 r J) :=
  concatenate_apply_piece 0 _ _ (ix2 R J) 1 (by show (1 : ℕ) < 3; omega) S16x6144 x1 rfl rfl 16 rfl (ix2 r J)
    (fun b hb => by match b with | ⟨0, _⟩ => exact absurd rfl hb | ⟨1, _⟩ => rfl) (by show 16 + r.val = R.val; omega)

/-- The same for `R` in the third band, `32 ≤ R`. -/
theorem col3_thd (x0 x1 x2 : S16x6144.Idx → α) (R : Fin 48) (J : Fin 6144) (r : Fin 16) (h : R.val = 32 + r.val) :
    concatenate S48x6144 0 [⟨S16x6144, x0⟩, ⟨S16x6144, x1⟩, ⟨S16x6144, x2⟩]
      concatenates_S16x6144_S16x6144_S16x6144_S48x6144_d0 (ix2 R J) = x2 (ix2 r J) :=
  concatenate_apply_piece 0 _ _ (ix2 R J) 2 (by show (2 : ℕ) < 3; omega) S16x6144 x2 rfl rfl 32 rfl (ix2 r J)
    (fun b hb => by match b with | ⟨0, _⟩ => exact absurd rfl hb | ⟨1, _⟩ => rfl) (by show 32 + r.val = R.val; omega)

end Blocks

/-! ## The zero blocks -/

/-- The scalar zero spread over a 16×4096 block is zero at every entry. -/
theorem z4096_apply (i : S16x4096.Idx) :
    (broadcastInDim S16x4096 ![] bcast_S_S16x4096 (constant (F := Ideal) S_ .f32 0x00000000#32) : S16x4096.Idx → EReal) i = 0 := by
  rw [broadcastInDim_scalar_apply, constant_apply, Ideal.ofBits_zero_f32]

/-- The scalar zero spread over a 16×1024 block is zero at every entry. -/
theorem z1024_apply (i : S16x1024.Idx) :
    (broadcastInDim S16x1024 ![] bcast_S_S16x1024 (constant (F := Ideal) S_ .f32 0x00000000#32) : S16x1024.Idx → EReal) i = 0 := by
  rw [broadcastInDim_scalar_apply, constant_apply, Ideal.ofBits_zero_f32]

/-! ## The array the host lines build -/

/-- One pass over the host lines at literal references: a line's result at its own reference is its function's value,
    at any other reference what was there before the line. -/
local macro "host_results" : tactic =>
  `(tactic| repeat (first
      | rw [StableHlo.nullary_result] | rw [StableHlo.unary_result] | rw [StableHlo.nary_result]
      | (rw [StableHlo.nullary_result_ne]; rotate_left; decide)
      | (rw [StableHlo.unary_result_ne]; rotate_left; decide)
      | (rw [StableHlo.nary_result_ne]; rotate_left; decide)))

variable (m : (ℓ : Loc nD τ sig) → Buf (Elt Ideal) ℓ) (c : Dev nD)

set_option maxHeartbeats 1000000 in
/-- The up-projection array as the region finds it: three bands stacked, band k holding projection k's up-projection
    in that projection's columns and the zero block in the two other column ranges; the narrowing to bf16 changes nothing
    at the ideal instance. The stacking reads its three bands, and each band its three pieces, through a family indexed by
    position, so the lines are read in three passes, the positions evaluated between them. -/
theorem B_arr : (V m c main_v16 : S48x6144.Idx → EReal) =
    truncf .bf16 (concatenate S48x6144 0
      [⟨S16x6144, concatenate S16x6144 1
          [⟨S16x4096, (m ((c : Thread nD τ).loc main_arg8) : S16x4096.Idx → EReal)⟩,
           ⟨S16x1024, broadcastInDim S16x1024 ![] bcast_S_S16x1024 (constant (F := Ideal) S_ .f32 0x00000000#32)⟩,
           ⟨S16x1024, broadcastInDim S16x1024 ![] bcast_S_S16x1024 (constant (F := Ideal) S_ .f32 0x00000000#32)⟩]
          concatenates_S16x4096_S16x1024_S16x1024_S16x6144_d1⟩,
       ⟨S16x6144, concatenate S16x6144 1
          [⟨S16x4096, broadcastInDim S16x4096 ![] bcast_S_S16x4096 (constant (F := Ideal) S_ .f32 0x00000000#32)⟩,
           ⟨S16x1024, (m ((c : Thread nD τ).loc main_arg10) : S16x1024.Idx → EReal)⟩,
           ⟨S16x1024, broadcastInDim S16x1024 ![] bcast_S_S16x1024 (constant (F := Ideal) S_ .f32 0x00000000#32)⟩]
          concatenates_S16x4096_S16x1024_S16x1024_S16x6144_d1⟩,
       ⟨S16x6144, concatenate S16x6144 1
          [⟨S16x4096, broadcastInDim S16x4096 ![] bcast_S_S16x4096 (constant (F := Ideal) S_ .f32 0x00000000#32)⟩,
           ⟨S16x1024, broadcastInDim S16x1024 ![] bcast_S_S16x1024 (constant (F := Ideal) S_ .f32 0x00000000#32)⟩,
           ⟨S16x1024, (m ((c : Thread nD τ).loc main_arg12) : S16x1024.Idx → EReal)⟩]
          concatenates_S16x4096_S16x1024_S16x1024_S16x6144_d1⟩]
      concatenates_S16x6144_S16x6144_S16x6144_S48x6144_d0) bitsLt_bf16_f32 := by
  show StableHlo.after hostOps0 (fun b => m (c, b)) (Proc.devRef .tc main_v16) = _
  after_results
  dsimp only [Matrix.cons_val]
  host_results
  dsimp only [Matrix.cons_val]
  host_results

/-! ## Its entries -/

theorem B_qq (r : Fin 16) (o : Fin 4096) :
    (V m c main_v16 : S48x6144.Idx → EReal) (ix2 (⟨r.val, by omega⟩ : Fin 48) (⟨o.val, by omega⟩ : Fin 6144)) = (m ((c : Thread nD τ).loc main_arg8) : S16x4096.Idx → EReal) (ix2 r o) := by
  rw [B_arr, truncf_apply, col3_fst _ _ _ _ _ r rfl, row3_fst _ _ _ _ _ o rfl]
theorem B_q0 (r : Fin 48) (hr : 16 ≤ r.val) (o : Fin 4096) :
    (V m c main_v16 : S48x6144.Idx → EReal) (ix2 r (⟨o.val, by omega⟩ : Fin 6144)) = (0 : EReal) := by
  rw [B_arr, truncf_apply]
  by_cases h : r.val < 32
  · rw [col3_snd _ _ _ r _ ⟨r.val - 16, by omega⟩ (by show r.val = 16 + (r.val - 16); omega), row3_fst _ _ _ _ _ o rfl,
      z4096_apply]
  · rw [col3_thd _ _ _ r _ ⟨r.val - 32, by omega⟩ (by show r.val = 32 + (r.val - 32); omega), row3_fst _ _ _ _ _ o rfl,
      z4096_apply]
theorem B_kk (r : Fin 16) (o : Fin 1024) :
    (V m c main_v16 : S48x6144.Idx → EReal) (ix2 (⟨16 + r.val, by omega⟩ : Fin 48) (⟨4096 + o.val, by omega⟩ : Fin 6144)) = (m ((c : Thread nD τ).loc main_arg10) : S16x1024.Idx → EReal) (ix2 r o) := by
  rw [B_arr, truncf_apply, col3_snd _ _ _ _ _ r rfl, row3_snd _ _ _ _ _ o rfl]
theorem B_k0 (r : Fin 48) (hr : r.val < 16 ∨ 32 ≤ r.val) (o : Fin 1024) :
    (V m c main_v16 : S48x6144.Idx → EReal) (ix2 r (⟨4096 + o.val, by omega⟩ : Fin 6144)) = (0 : EReal) := by
  rw [B_arr, truncf_apply]
  rcases hr with h | h
  · rw [col3_fst _ _ _ r _ ⟨r.val, h⟩ rfl, row3_snd _ _ _ _ _ o rfl, z1024_apply]
  · rw [col3_thd _ _ _ r _ ⟨r.val - 32, by omega⟩ (by show r.val = 32 + (r.val - 32); omega), row3_snd _ _ _ _ _ o rfl,
      z1024_apply]
theorem B_vv (r : Fin 16) (o : Fin 1024) :
    (V m c main_v16 : S48x6144.Idx → EReal) (ix2 (⟨32 + r.val, by omega⟩ : Fin 48) (⟨5120 + o.val, by omega⟩ : Fin 6144)) = (m ((c : Thread nD τ).loc main_arg12) : S16x1024.Idx → EReal) (ix2 r o) := by
  rw [B_arr, truncf_apply, col3_thd _ _ _ _ _ r rfl, row3_thd _ _ _ _ _ o rfl]
theorem B_v0 (r : Fin 48) (hr : r.val < 32) (o : Fin 1024) :
    (V m c main_v16 : S48x6144.Idx → EReal) (ix2 r (⟨5120 + o.val, by omega⟩ : Fin 6144)) = (0 : EReal) := by
  rw [B_arr, truncf_apply]
  by_cases h : r.val < 16
  · rw [col3_fst _ _ _ r _ ⟨r.val, h⟩ rfl, row3_thd _ _ _ _ _ o rfl, z1024_apply]
  · rw [col3_snd _ _ _ r _ ⟨r.val - 16, by omega⟩ (by show r.val = 16 + (r.val - 16); omega), row3_thd _ _ _ _ _ o rfl,
      z1024_apply]

end Cert.KernelIdeal.HandValue

end
-- ==== Proof.SpecFused.lean ====
/- The fused formula, restricted to one projection's rows and columns, is that projection: the algebra of the
   block-diagonal LoRA up-projection, over the extended reals, with no assumption of finiteness (a number times zero
   is zero for every extended real). -/
import proofs.«116329_j61770219651785_1_alg».proof.Proof.Spec

noncomputable section

open scoped BigOperators

namespace Cert.Spec

open Idealize.ShloMosaic Idealize.ShloMosaic.ValueIdx

/-- The fused formula at a row and a column that belong to one projection is that projection, given what the fused
    operands hold there: the projection's own weight row, down-projection columns, up-projection rows (the other
    rows of the block-diagonal zero) and bias. -/
theorem fused_first {X : (⟨2, ![8192, 4096]⟩ : Shape).Idx → EReal} {W : (⟨2, ![4096, 6144]⟩ : Shape).Idx → EReal}
    {A : (⟨2, ![4096, 48]⟩ : Shape).Idx → EReal} {B : (⟨2, ![48, 6144]⟩ : Shape).Idx → EReal}
    {bias : (⟨2, ![1, 6144]⟩ : Shape).Idx → EReal}
    {x' : (⟨3, ![4, 2048, 4096]⟩ : Shape).Idx → EReal} {W' : (⟨2, ![4096, 4096]⟩ : Shape).Idx → EReal}
    {A' : (⟨2, ![4096, 16]⟩ : Shape).Idx → EReal} {B' : (⟨2, ![16, 4096]⟩ : Shape).Idx → EReal}
    {bias' : (⟨1, ![4096]⟩ : Shape).Idx → EReal}
    (p : Fin 8192) (j : Fin 6144) (b : Fin 4) (s : Fin 2048) (o : Fin 4096)
    (hX : ∀ h : Fin 4096, X (ix2 p h) = x' (ix3 b s h))
    (hW : ∀ h : Fin 4096, W (ix2 h j) = W' (ix2 o h))
    (hA : ∀ (h : Fin 4096) (r : Fin 16), A (ix2 h (⟨r.val, by omega⟩ : Fin 48)) = A' (ix2 h r))
    (hB : ∀ r : Fin 16, B (ix2 (⟨r.val, by omega⟩ : Fin 48) j) = B' (ix2 r o))
    (hB0 : ∀ r : Fin 48, 16 ≤ r.val → B (ix2 r j) = 0)
    (hbias : bias (ix2 (0 : Fin 1) j) = bias' (ix1 o)) :
    fused X W A B bias p j = projQ x' W' A' B' bias' b s o := by
  unfold fused projQ
  rw [sum48_first (fun r : Fin 48 => (∑ h : Fin 4096, X (ix2 p h) * A (ix2 h r)) * B (ix2 r j))
    (fun r hr => by show _ * _ = (0 : EReal); rw [hB0 r hr, mul_zero]), hbias]
  congr 1
  congr 1
  · exact Finset.sum_congr rfl (fun h _ => by rw [hX, hW])
  · congr 1
    refine Finset.sum_congr rfl (fun r _ => ?_)
    show (∑ h : Fin 4096, X (ix2 p h) * A (ix2 h (⟨r.val, by omega⟩ : Fin 48))) * B (ix2 (⟨r.val, by omega⟩ : Fin 48) j) = _
    rw [hB]
    congr 1
    exact Finset.sum_congr rfl (fun h _ => by rw [hX, hA])

/-- The fused formula at a row and a column that belong to one projection is that projection, given what the fused
    operands hold there: the projection's own weight row, down-projection columns, up-projection rows (the other
    rows of the block-diagonal zero) and bias. -/
theorem fused_second {X : (⟨2, ![8192, 4096]⟩ : Shape).Idx → EReal} {W : (⟨2, ![4096, 6144]⟩ : Shape).Idx → EReal}
    {A : (⟨2, ![4096, 48]⟩ : Shape).Idx → EReal} {B : (⟨2, ![48, 6144]⟩ : Shape).Idx → EReal}
    {bias : (⟨2, ![1, 6144]⟩ : Shape).Idx → EReal}
    {x' : (⟨3, ![4, 2048, 4096]⟩ : Shape).Idx → EReal} {W' : (⟨2, ![1024, 4096]⟩ : Shape).Idx → EReal}
    {A' : (⟨2, ![4096, 16]⟩ : Shape).Idx → EReal} {B' : (⟨2, ![16, 1024]⟩ : Shape).Idx → EReal}
    {bias' : (⟨1, ![1024]⟩ : Shape).Idx → EReal}
    (p : Fin 8192) (j : Fin 6144) (b : Fin 4) (s : Fin 2048) (o : Fin 1024)
    (hX : ∀ h : Fin 4096, X (ix2 p h) = x' (ix3 b s h))
    (hW : ∀ h : Fin 4096, W (ix2 h j) = W' (ix2 o h))
    (hA : ∀ (h : Fin 4096) (r : Fin 16), A (ix2 h (⟨16 + r.val, by omega⟩ : Fin 48)) = A' (ix2 h r))
    (hB : ∀ r : Fin 16, B (ix2 (⟨16 + r.val, by omega⟩ : Fin 48) j) = B' (ix2 r o))
    (hB0 : ∀ r : Fin 48, (r.val < 16 ∨ 32 ≤ r.val) → B (ix2 r j) = 0)
    (hbias : bias (ix2 (0 : Fin 1) j) = bias' (ix1 o)) :
    fused X W A B bias p j = projKV x' W' A' B' bias' b s o := by
  unfold fused projKV
  rw [sum48_second (fun r : Fin 48 => (∑ h : Fin 4096, X (ix2 p h) * A (ix2 h r)) * B (ix2 r j))
    (fun r hr => by show _ * _ = (0 : EReal); rw [hB0 r hr, mul_zero]), hbias]
  congr 1
  congr 1
  · exact Finset.sum_congr rfl (fun h _ => by rw [hX, hW])
  · congr 1
    refine Finset.sum_congr rfl (fun r _ => ?_)
    show (∑ h : Fin 4096, X (ix2 p h) * A (ix2 h (⟨16 + r.val, by omega⟩ : Fin 48))) * B (ix2 (⟨16 + r.val, by omega⟩ : Fin 48) j) = _
    rw [hB]
    congr 1
    exact Finset.sum_congr rfl (fun h _ => by rw [hX, hA])

/-- The fused formula at a row and a column that belong to one projection is that projection, given what the fused
    operands hold there: the projection's own weight row, down-projection columns, up-projection rows (the other
    rows of the block-diagonal zero) and bias. -/
theorem fused_third {X : (⟨2, ![8192, 4096]⟩ : Shape).Idx → EReal} {W : (⟨2, ![4096, 6144]⟩ : Shape).Idx → EReal}
    {A : (⟨2, ![4096, 48]⟩ : Shape).Idx → EReal} {B : (⟨2, ![48, 6144]⟩ : Shape).Idx → EReal}
    {bias : (⟨2, ![1, 6144]⟩ : Shape).Idx → EReal}
    {x' : (⟨3, ![4, 2048, 4096]⟩ : Shape).Idx → EReal} {W' : (⟨2, ![1024, 4096]⟩ : Shape).Idx → EReal}
    {A' : (⟨2, ![4096, 16]⟩ : Shape).Idx → EReal} {B' : (⟨2, ![16, 1024]⟩ : Shape).Idx → EReal}
    {bias' : (⟨1, ![1024]⟩ : Shape).Idx → EReal}
    (p : Fin 8192) (j : Fin 6144) (b : Fin 4) (s : Fin 2048) (o : Fin 1024)
    (hX : ∀ h : Fin 4096, X (ix2 p h) = x' (ix3 b s h))
    (hW : ∀ h : Fin 4096, W (ix2 h j) = W' (ix2 o h))
    (hA : ∀ (h : Fin 4096) (r : Fin 16), A (ix2 h (⟨32 + r.val, by omega⟩ : Fin 48)) = A' (ix2 h r))
    (hB : ∀ r : Fin 16, B (ix2 (⟨32 + r.val, by omega⟩ : Fin 48) j) = B' (ix2 r o))
    (hB0 : ∀ r : Fin 48, r.val < 32 → B (ix2 r j) = 0)
    (hbias : bias (ix2 (0 : Fin 1) j) = bias' (ix1 o)) :
    fused X W A B bias p j = projKV x' W' A' B' bias' b s o := by
  unfold fused projKV
  rw [sum48_third (fun r : Fin 48 => (∑ h : Fin 4096, X (ix2 p h) * A (ix2 h r)) * B (ix2 r j))
    (fun r hr => by show _ * _ = (0 : EReal); rw [hB0 r hr, mul_zero]), hbias]
  congr 1
  congr 1
  · exact Finset.sum_congr rfl (fun h _ => by rw [hX, hW])
  · congr 1
    refine Finset.sum_congr rfl (fun r _ => ?_)
    show (∑ h : Fin 4096, X (ix2 p h) * A (ix2 h (⟨32 + r.val, by omega⟩ : Fin 48))) * B (ix2 (⟨32 + r.val, by omega⟩ : Fin 48) j) = _
    rw [hB]
    congr 1
    exact Finset.sum_congr rfl (fun h _ => by rw [hX, hA])

end Cert.Spec

end
-- ==== Proof.KIValue.lean ====
/- The kernel's three results are the three projections.  Entry (b, s, o) of a result is entry (b·2048 + s, off + o)
   of the fused output array (off = 0, 4096, 5120 for query, key, value), which is the fused formula of the arrays the
   region was entered with.  There the fused weight's column off + o is the projection's own weight row o, the bias
   row's entry off + o the projection's own bias, and in the 48-term inner sum of the LoRA correction the block-diagonal
   up-projection is zero outside the projection's own 16 rows: those terms are a number times zero, and the sum is
   the projection's own 16-term sum, over its own down-projection's columns. -/
import proofs.«116329_j61770219651785_1_alg».proof.Proof.KIOut
import proofs.«116329_j61770219651785_1_alg».proof.Proof.KIHost
import proofs.«116329_j61770219651785_1_alg».proof.Proof.KIDiag
import proofs.«116329_j61770219651785_1_alg».proof.Proof.SpecFused

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

theorem result_q (b : Fin 4) (s : Fin 2048) (o : Fin 4096) :
    (Pipeline.afterTail₀ cfgs (dats m) 0 (V0 m) [hostOps1] c main_v20 : S4x2048x4096.Idx → EReal) (ix3 b s o)
      = Cert.Spec.projQ (m ((c : Thread nD τ).loc main_arg0) : S4x2048x4096.Idx → EReal) (m ((c : Thread nD τ).loc main_arg1) : S4096x4096.Idx → EReal) (m ((c : Thread nD τ).loc main_arg7) : S4096x16.Idx → EReal) (m ((c : Thread nD τ).loc main_arg8) : S16x4096.Idx → EReal) (m ((c : Thread nD τ).loc main_arg4) : S4096.Idx → EReal) b s o :=
  (tail_q m c b s o).trans ((out_eq m c _ _).trans
    (Cert.Spec.fused_first _ _ b s o (fun h => X_eq m c b s h) (fun h => W_q m c h o) (fun h r => A_q m c h r)
      (fun r => B_qq m c r o) (fun r hr => B_q0 m c r hr o) (bias_q m c o)))

theorem result_k (b : Fin 4) (s : Fin 2048) (o : Fin 1024) :
    (Pipeline.afterTail₀ cfgs (dats m) 0 (V0 m) [hostOps1] c main_v21 : S4x2048x1024.Idx → EReal) (ix3 b s o)
      = Cert.Spec.projKV (m ((c : Thread nD τ).loc main_arg0) : S4x2048x4096.Idx → EReal) (m ((c : Thread nD τ).loc main_arg2) : S1024x4096.Idx → EReal) (m ((c : Thread nD τ).loc main_arg9) : S4096x16.Idx → EReal) (m ((c : Thread nD τ).loc main_arg10) : S16x1024.Idx → EReal) (m ((c : Thread nD τ).loc main_arg5) : S1024.Idx → EReal) b s o :=
  (tail_k m c b s o).trans ((out_eq m c _ _).trans
    (Cert.Spec.fused_second _ _ b s o (fun h => X_eq m c b s h) (fun h => W_k m c h o) (fun h r => A_k m c h r)
      (fun r => B_kk m c r o) (fun r hr => B_k0 m c r hr o) (bias_k m c o)))

theorem result_v (b : Fin 4) (s : Fin 2048) (o : Fin 1024) :
    (Pipeline.afterTail₀ cfgs (dats m) 0 (V0 m) [hostOps1] c main_v22 : S4x2048x1024.Idx → EReal) (ix3 b s o)
      = Cert.Spec.projKV (m ((c : Thread nD τ).loc main_arg0) : S4x2048x4096.Idx → EReal) (m ((c : Thread nD τ).loc main_arg3) : S1024x4096.Idx → EReal) (m ((c : Thread nD τ).loc main_arg11) : S4096x16.Idx → EReal) (m ((c : Thread nD τ).loc main_arg12) : S16x1024.Idx → EReal) (m ((c : Thread nD τ).loc main_arg6) : S1024.Idx → EReal) b s o :=
  (tail_v m c b s o).trans ((out_eq m c _ _).trans
    (Cert.Spec.fused_third _ _ b s o (fun h => X_eq m c b s h) (fun h => W_v m c h o) (fun h r => A_v m c h r)
      (fun r => B_vv m c r o) (fun r hr => B_v0 m c r hr o) (bias_v m c o)))

end Cert.KernelIdeal.HandValue

end
-- ==== Proof.RefValue.lean ====
/- The reference's three results, read entry by entry at the ideal instance: each is the one-projection formula
   x · Wᵀ + 2 · ((x · A) · B) + bias of its own weight, LoRA pair and bias. -/
import proofs.«116329_j61770219651785_1_alg».proof.Proof.Gen.ReferenceIdeal.Run
import proofs.«116329_j61770219651785_1_alg».proof.Proof.Gen.ReferenceIdeal.Read
import proofs.«116329_j61770219651785_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem

/-- The query result's term is the query projection. -/
theorem ref_q (X : FVec Ideal S4x2048x4096 .f32) (W : FVec Ideal S4096x4096 .f32) (A : FVec Ideal S4096x16 .f32)
    (B : FVec Ideal S16x4096 .f32) (bias : FVec Ideal S4096 .f32) (b : Fin 4) (s : Fin 2048) (o : Fin 4096) :
    (addf (addf (Host.dotGeneral dot_S4x2048x4096_S4096x4096_S4x2048x4096_2_1_01_0_n_n none X W) (mulf (broadcastInDim S4x2048x4096 ![] bcast_S_S4x2048x4096 (constant (F := Ideal) S_ .f32 0x40000000#32)) (Host.dotGeneral dot_S4x2048x16_S16x4096_S4x2048x4096_2_0_01_1_n_n none (Host.dotGeneral dot_S4x2048x4096_S4096x16_S4x2048x16_2_0_01_1_n_n none X A) B))) (broadcastInDim S4x2048x4096 ![0, 1, 2] bcast_S1x1x4096_S4x2048x4096_0_1_2 (broadcastInDim S1x1x4096 ![2] bcast_S4096_S1x1x4096_2 bias))) (ix3 b s o)
      = Cert.Spec.projQ X W A B bias b s o := by
  -- Entry by entry: each product is its sum over the contracted axis, the scalar 2 and the bias are read at
  -- their own coordinates, and every composed index map is the index of the coordinates it names.
  rw [Read.val_main_v8_eq (F := Ideal) X W bias A B]
  rw [Read.val_main_v8_apply, Read.val_main_v5_apply, Read.val_main_v4_apply, Read.val_main_v7_apply,
    Read.val_main_v6_apply, Read.val_main_v3_apply, Read.val_main_cst_apply, Read.val_main_v0_apply,
    Read.val_main_v2_apply]
  simp only [Read.val_main_v1_apply]
  have e0l : ∀ h : Fin 4096, Read.lidx_main_v0 (ix3 b s o) h = ix3 b s h := fun h => funext fun a => Fin.ext (by
    match a with
    | ⟨0, _⟩ => rfl
    | ⟨1, _⟩ => rfl
    | ⟨2, _⟩ => rfl)
  have e0r : ∀ h : Fin 4096, Read.ridx_main_v0 (ix3 b s o) h = ix2 o h := fun h => funext fun a => Fin.ext (by
    match a with
    | ⟨0, _⟩ => rfl
    | ⟨1, _⟩ => rfl)
  have e1l : ∀ (r : Fin 16) (h : Fin 4096),
      Read.lidx_main_v1 (Read.lidx_main_v2 (ix3 b s o) r) h = ix3 b s h := fun r h => funext fun a => Fin.ext (by
    match a with
    | ⟨0, _⟩ => rfl
    | ⟨1, _⟩ => rfl
    | ⟨2, _⟩ => rfl)
  have e1r : ∀ (r : Fin 16) (h : Fin 4096),
      Read.ridx_main_v1 (Read.lidx_main_v2 (ix3 b s o) r) h = ix2 h r := fun r h => funext fun a => Fin.ext (by
    match a with
    | ⟨0, _⟩ => rfl
    | ⟨1, _⟩ => rfl)
  have e2r : ∀ r : Fin 16, Read.ridx_main_v2 (ix3 b s o) r = ix2 r o := fun r => funext fun a => Fin.ext (by
    match a with
    | ⟨0, _⟩ => rfl
    | ⟨1, _⟩ => rfl)
  have eb : Read.idx_main_v6 (Read.idx_main_v7 (ix3 b s o)) = ix1 o := funext fun a => Fin.ext (by
    match a with
    | ⟨0, _⟩ => rfl)
  simp only [e0l, e0r, e1l, e1r, e2r, eb]
  rfl

/-- The key and value results' term is the 1024-channel projection. -/
theorem ref_kv (X : FVec Ideal S4x2048x4096 .f32) (W : FVec Ideal S1024x4096 .f32) (A : FVec Ideal S4096x16 .f32)
    (B : FVec Ideal S16x1024 .f32) (bias : FVec Ideal S1024 .f32) (b : Fin 4) (s : Fin 2048) (o : Fin 1024) :
    (addf (addf (Host.dotGeneral dot_S4x2048x4096_S1024x4096_S4x2048x1024_2_1_01_0_n_n none X W) (mulf (broadcastInDim S4x2048x1024 ![] bcast_S_S4x2048x1024 (constant (F := Ideal) S_ .f32 0x40000000#32)) (Host.dotGeneral dot_S4x2048x16_S16x1024_S4x2048x1024_2_0_01_1_n_n none (Host.dotGeneral dot_S4x2048x4096_S4096x16_S4x2048x16_2_0_01_1_n_n none X A) B))) (broadcastInDim S4x2048x1024 ![0, 1, 2] bcast_S1x1x1024_S4x2048x1024_0_1_2 (broadcastInDim S1x1x1024 ![2] bcast_S1024_S1x1x1024_2 bias))) (ix3 b s o)
      = Cert.Spec.projKV X W A B bias b s o := by
  -- The same reading as for the query, at 1024 output channels.
  rw [Read.val_main_v17_eq (F := Ideal) X W bias A B]
  rw [Read.val_main_v17_apply, Read.val_main_v14_apply, Read.val_main_v13_apply, Read.val_main_v16_apply,
    Read.val_main_v15_apply, Read.val_main_v12_apply, Read.val_main_cst_0_apply, Read.val_main_v9_apply,
    Read.val_main_v11_apply]
  simp only [Read.val_main_v10_apply]
  have e0l : ∀ h : Fin 4096, Read.lidx_main_v9 (ix3 b s o) h = ix3 b s h := fun h => funext fun a => Fin.ext (by
    match a with
    | ⟨0, _⟩ => rfl
    | ⟨1, _⟩ => rfl
    | ⟨2, _⟩ => rfl)
  have e0r : ∀ h : Fin 4096, Read.ridx_main_v9 (ix3 b s o) h = ix2 o h := fun h => funext fun a => Fin.ext (by
    match a with
    | ⟨0, _⟩ => rfl
    | ⟨1, _⟩ => rfl)
  have e1l : ∀ (r : Fin 16) (h : Fin 4096),
      Read.lidx_main_v10 (Read.lidx_main_v11 (ix3 b s o) r) h = ix3 b s h := fun r h => funext fun a => Fin.ext (by
    match a with
    | ⟨0, _⟩ => rfl
    | ⟨1, _⟩ => rfl
    | ⟨2, _⟩ => rfl)
  have e1r : ∀ (r : Fin 16) (h : Fin 4096),
      Read.ridx_main_v10 (Read.lidx_main_v11 (ix3 b s o) r) h = ix2 h r := fun r h => funext fun a => Fin.ext (by
    match a with
    | ⟨0, _⟩ => rfl
    | ⟨1, _⟩ => rfl)
  have e2r : ∀ r : Fin 16, Read.ridx_main_v11 (ix3 b s o) r = ix2 r o := fun r => funext fun a => Fin.ext (by
    match a with
    | ⟨0, _⟩ => rfl
    | ⟨1, _⟩ => rfl)
  have eb : Read.idx_main_v15 (Read.idx_main_v16 (ix3 b s o)) = ix1 o := funext fun a => Fin.ext (by
    match a with
    | ⟨0, _⟩ => rfl)
  simp only [e0l, e0r, e1l, e1r, e2r, eb]
  rfl

end Cert.ReferenceIdeal.RefValue

end
-- ==== Proof.lean ====
/-
  The fused QKV projection with LoRA against its three separate reference projections, over the extended reals.

  Each projection of a row is  x · Wᵀ + 2 · ((x · A) · B) + bias.  The reference computes the query, key and value
  projections one after the other.  The kernel lays the three transposed weights side by side, the three LoRA
  down-projections side by side, puts the three up-projections on the diagonal of a matrix that is zero elsewhere, and
  computes all 6144 output columns in one pipeline of 128 tiles; the result is then cut into its query, key and value
  columns.  The two agree entry by entry: a column of the fused result sees its own projection's weight row and bias,
  and the 48-term inner sum of the fused LoRA correction loses its 32 foreign terms, each a number times zero.  No
  input needs to be finite for that.  The narrowing of the operands to bfloat16 is the identity over the extended
  reals, and nothing was rewritten when the kernel was read there, so that conjunct holds trivially.

  The frames: the two kernel programs run their host lines, the pipeline (each tile loads its five operand tiles and
  stores one output tile; nothing else is touched) and the host lines after it, and no line writes an argument; the
  reference is a straight line of host operations.
-/
import proofs.«116329_j61770219651785_1_alg».proof.Defs
import proofs.«116329_j61770219651785_1_alg».proof.Proof.Gen.Kernel
import proofs.«116329_j61770219651785_1_alg».proof.Proof.Gen.KernelIdeal
import proofs.«116329_j61770219651785_1_alg».proof.Proof.Gen.ReferenceIdeal
import proofs.«116329_j61770219651785_1_alg».proof.Proof.Gen.Pre_finite_inputs
import proofs.«116329_j61770219651785_1_alg».proof.Proof.Gen.ReferenceIdeal.Run
import proofs.«116329_j61770219651785_1_alg».proof.Proof.Gen.ReferenceIdeal.Read
import proofs.«116329_j61770219651785_1_alg».proof.Proof.KFrame
import proofs.«116329_j61770219651785_1_alg».proof.Proof.KIFrame
import proofs.«116329_j61770219651785_1_alg».proof.Proof.KIValue
import proofs.«116329_j61770219651785_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

theorem preserves : Cert.preserves_Kernel_KernelIdeal := trivial

/-- Both programs, from memories that agree on the arguments, end with the three projections in their results. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) [Cert.KernelIdeal.Gen.hostOps1] c Cert.KernelIdeal.main_v20,
    fun c => Pipeline.afterTail₀ Cert.KernelIdeal.cfgs (Cert.KernelIdeal.Hand.dats m) 0 (Cert.KernelIdeal.Hand.V0 m) [Cert.KernelIdeal.Gen.hostOps1] c Cert.KernelIdeal.main_v21,
    fun c => Pipeline.afterTail₀ Cert.KernelIdeal.cfgs (Cert.KernelIdeal.Hand.dats m) 0 (Cert.KernelIdeal.Hand.V0 m) [Cert.KernelIdeal.Gen.hostOps1] c Cert.KernelIdeal.main_v22,
    Cert.KernelIdeal.Hand.results_run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12⟩ := hagree c
  refine ⟨?_, ?_, ?_, (h c).2.2.2⟩
  · rw [(h c).1, h0, h1, h7, h8, h4]
    funext i
    obtain ⟨b, s, o, rfl⟩ : ∃ (b : Fin 4) (s : Fin 2048) (o : Fin 4096), i = ix3 b s o := ⟨i 0, i 1, i 2, eq_ix3 i⟩
    exact (Cert.ReferenceIdeal.RefValue.ref_q _ _ _ _ _ b s o).trans (Cert.KernelIdeal.HandValue.result_q m c b s o).symm
  · rw [(h c).2.1, h0, h2, h9, h10, h5]
    funext i
    obtain ⟨b, s, o, rfl⟩ : ∃ (b : Fin 4) (s : Fin 2048) (o : Fin 1024), i = ix3 b s o := ⟨i 0, i 1, i 2, eq_ix3 i⟩
    exact (Cert.ReferenceIdeal.RefValue.ref_kv _ _ _ _ _ b s o).trans (Cert.KernelIdeal.HandValue.result_k m c b s o).symm
  · rw [(h c).2.2.1, h0, h3, h11, h12, h6]
    funext i
    obtain ⟨b, s, o, rfl⟩ : ∃ (b : Fin 4) (s : Fin 2048) (o : Fin 1024), i = ix3 b s o := ⟨i 0, i 1, i 2, eq_ix3 i⟩
    exact (Cert.ReferenceIdeal.RefValue.ref_kv _ _ _ _ _ b s o).trans (Cert.KernelIdeal.HandValue.result_v m c b s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
